-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S40x64 : Shape := ⟨2, ![40, 64]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v29 : IVec S_ 1) (main_v33 : IVec S1600000 1) (main_c_11 : IVec S_ 1) : IVec S_ 1 :=
  let main_v34 : IVec S_ 1 := (fun x v => Host.reduce IntOp.andi x v reducesTo_S1600000_S_d0 h_S_) main_v33 main_c_11
  let main_v35 : IVec S_ 1 := andi main_v29 main_v34
  main_v35

def fn_part1 {F : FTy → Type} [FloatOps F] (main_arg1 : IVec S2x1600000 32) (main_arg5 : FVec F S40 .f32) (main_v13 : IVec S_ 1) (main_v16 : IVec S40x64 1) : IVec S_ 1 :=
  let main_c_5 : IVec S_ 1 := constantI S_ 1 1#1
  let main_v17 : IVec S_ 1 := (fun x v => Host.reduce IntOp.andi x v reducesTo_S40x64_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : IVec S1x1600000 32 := (extractStridedSlice S1x1600000 ![1, 0] · slices_S2x1600000_S1x1600000_1_0) main_arg1
  let main_v25 : IVec S1600000 32 := shapeCast S1600000 main_v24 shapeCasts_S1x1600000_S1600000
  let main_c_8 : IVec S_ 32 := constantI S_ 32 4294867296#32
  let main_v26 : IVec S1600000 32 := broadcastInDim S1600000 ![] bcast_S_S1600000 main_c_8
  let main_v27 : IVec S1600000 1 := cmpi .sge main_v25 main_v26
  let main_c_9 : IVec S_ 1 := constantI S_ 1 1#1
  let main_v28 : IVec S_ 1 := (fun x v => Host.reduce IntOp.andi x v reducesTo_S1600000_S_d0 h_S_) main_v27 main_c_9
  let main_v29 : IVec S_ 1 := andi main_v23 main_v28
  let main_v30 : IVec S1x1600000 32 := (extractStridedSlice S1x1600000 ![1, 0] · slices_S2x1600000_S1x1600000_1_0) main_arg1
  let main_v31 : IVec S1600000 32 := shapeCast S1600000 main_v30 shapeCasts_S1x1600000_S1600000
  let main_c_10 : IVec S_ 32 := constantI S_ 32 100000#32
  let main_v32 : IVec S1600000 32 := broadcastInDim S1600000 ![] bcast_S_S1600000 main_c_10
  let main_v33 : IVec S1600000 1 := cmpi .slt main_v31 main_v32
  let main_c_11 : IVec S_ 1 := constantI S_ 1 1#1
  fn_part2 (F := F) main_v29 main_v33 main_c_11

def fn {F : FTy → Type} [FloatOps F] (main_arg0 : FVec F S100000x256 .f32) (main_arg1 : IVec S2x1600000 32) (main_arg2 : FVec F S64x256 .f32) (main_arg3 : FVec F S64 .f32) (main_arg4 : FVec F S40x64 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S40x64 .f32 := Host.absf main_arg4
  let main_cst_4 : FVec F S_ .f32 := constant S_ .f32 0x7F800000#32
  let main_v15 : FVec F S40x64 .f32 := broadcastInDim S40x64 ![] bcast_S_S40x64 main_cst_4
  let main_v16 : IVec S40x64 1 := cmpf .olt main_v14 main_v15
  fn_part1 (F := F) main_arg1 main_arg5 main_v13 main_v16
-- ==== Kernel.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S40x64 : Shape := ⟨2, ![40, 64]⟩
abbrev S40 : Shape := ⟨1, ![40]⟩
abbrev S256x64 : Shape := ⟨2, ![256, 64]⟩
abbrev S64x40 : Shape := ⟨2, ![64, 40]⟩
abbrev S100000x64 : Shape := ⟨2, ![100000, 64]⟩
abbrev S10000x256 : Shape := ⟨2, ![10000, 256]⟩
abbrev S10000x64 : Shape := ⟨2, ![10000, 64]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S100000x40 : Shape := ⟨2, ![100000, 40]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 41
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S64x256, .f32⟩
  | .hbm, ⟨3, _⟩ => ⟨S64, .f32⟩
  | .hbm, ⟨4, _⟩ => ⟨S40x64, .f32⟩
  | .hbm, ⟨5, _⟩ => ⟨S40, .f32⟩
  | .hbm, ⟨6, _⟩ => ⟨S256x64, .f32⟩
  | .hbm, ⟨7, _⟩ => ⟨S64x40, .f32⟩
  | .hbm, ⟨8, _⟩ => ⟨S100000x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1, .i32⟩
  | .hbm, ⟨22, _⟩ => ⟨S_, .i32⟩
  | .hbm, ⟨23, _⟩ => ⟨S1600000x1, .i32⟩
  | .hbm, ⟨24, _⟩ => ⟨S1600000x1, .i1⟩
  | .hbm, ⟨25, _⟩ => ⟨S1x1, .i32⟩
  | .hbm, ⟨26, _⟩ => ⟨S1600000x1, .i32⟩
  | .hbm, ⟨27, _⟩ => ⟨S1600000x1, .i1⟩
  | .hbm, ⟨28, _⟩ => ⟨S1600000x1, .i1⟩
  | .hbm, ⟨29, _⟩ => ⟨S_, .i1⟩
  | .hbm, ⟨30, _⟩ => ⟨S1600000, .i1⟩
  | .hbm, ⟨31, _⟩ => ⟨S1600000x64, .f32⟩
  | .hbm, ⟨32, _⟩ => ⟨S1600000x64, .i1⟩
  | .hbm, ⟨33, _⟩ => ⟨S_, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x40, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x40, .f32⟩
  | .local _ .vmem, ⟨9, _⟩ => ⟨S40, .f32⟩
  | .local _ .vmem, ⟨10, _⟩ => ⟨S10000x40, .f32⟩
  | .local _ .vmem, ⟨11, _⟩ => ⟨S10000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S64x256_S256x64_1_0 : S64x256.Transposes [1, 0] S256x64
  transposes_S40x64_S64x40_1_0 : S40x64.Transposes [1, 0] S64x40
  inb_S10000x256_S10000x256_0_0 : ∀ a, (![0, 0] : Fin 2 → Nat) a + S10000x256.size a ≤ S10000x256.size a
  h_S10000x256 : 0 < S10000x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S10000x64_S10000x64 : S10000x64.ShapeCasts S10000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  dot_S10000x256_S256x64_S10000x64_1_0_0_1_n_n_wf : DotDims.WF S10000x256 S256x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40.size a ≤ S40.size a
  hwx1_2 : ∀ i : grid1.Coords, EltTy.bits .f32 = 32 ∨ (Rect.block (s := S40) S40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S40x64 : Shape := ⟨2, ![40, 64]⟩
abbrev S40 : Shape := ⟨1, ![40]⟩
abbrev S256x64 : Shape := ⟨2, ![256, 64]⟩
abbrev S100000x64 : Shape := ⟨2, ![100000, 64]⟩
abbrev S1x64 : Shape := ⟨2, ![1, 64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S64x40 : Shape := ⟨2, ![64, 40]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 51
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S64x256, .f32⟩
  | .hbm, ⟨3, _⟩ => ⟨S64, .f32⟩
  | .hbm, ⟨4, _⟩ => ⟨S40x64, .f32⟩
  | .hbm, ⟨5, _⟩ => ⟨S40, .f32⟩
  | .hbm, ⟨6, _⟩ => ⟨S256x64, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S_, .f32⟩
  | .hbm, ⟨12, _⟩ => ⟨S100000x64, .f32⟩
  | .hbm, ⟨13, _⟩ => ⟨S100000x64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S64x40, .f32⟩
  | .hbm, ⟨32, _⟩ => ⟨S100000x40, .f32⟩
  | .hbm, ⟨33, _⟩ => ⟨S1x40, .f32⟩
  | .hbm, ⟨34, _⟩ => ⟨S100000x40, .f32⟩
  | .hbm, ⟨35, _⟩ => ⟨S100000x40, .f32⟩
  | .hbm, ⟨36, _⟩ => ⟨S_, .f32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x40, .f32⟩
  | .hbm, ⟨43, _⟩ => ⟨S100000x40, .f32⟩
  | .hbm, ⟨44, _⟩ => ⟨S100000x40, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S100000x1, .f32⟩
  | .hbm, ⟨49, _⟩ => ⟨S100000x40, .f32⟩
  | .hbm, ⟨50, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v25 : Ref sig .tc := ⟨.hbm, 50, rfl⟩

abbrev nD : Nat := 1
abbrev τ : Topo := Topo.v7x

variable {F : FTy → Type} [FloatOps F]

class Facts₀ : Prop where
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelMid.lean ====
/-
  Between the two kernel regions the program gathers rows of the hidden layer by the edges' source column and sums
  them into the edges' destination rows. This module names that stretch as functions of the hidden layer `h` and of the
  edge array `e`:

  * `colOf e`, `rowOf e`: the two rows of the [2, E] edge array as vectors of length E;
  * `wrapIdx col`: an index below zero is taken from the end (`col + 100000`), as an [E, 1] column of start indices;
  * `inRange idx`: the bit "0 ≤ idx ≤ 99999" per edge, spread over the 64 features;
  * `takeFill h col`: the gathered rows where the index is in range, the not-a-number pattern elsewhere;
  * `aggK h e`: the scatter-sum of those rows into a zero [100000, 64] array at the rows `rowOf e`;

  and reads the buffer contents when the second region is entered: its input `main_v10` holds `aggK` of what the first
  region left in `main_v2` and of the edge argument. The three stretches of host operations between the regions are read
  one at a time, each from ARBITRARY contents `V` (so that a stretch's operands stay names, not terms), and then composed.
-/
import proofs.«416674_j19911468384542_2_alg».proof.Proof.Gen.KernelIdeal.Frame
import Idealize.ShloMosaic.Lib.StableHlo.Run
import Idealize.ShloMosaic.Lib.Pipeline.Frame

set_option maxRecDepth 16384

noncomputable section

namespace Cert.KernelIdeal.Mid

open Cert.KernelIdeal Cert.KernelIdeal.Gen
open Idealize.ShloMosaic Idealize.ShloMosaic.TcCoe Idealize.SL.Sem Idealize.ShloMosaic.StableHlo

variable {F : FTy → Type} [FloatOps F]

/-- The edges' source column: row 1 of the edge array. -/
def colOf (e : IVec S2x1600000 32) : IVec S1600000 32 :=
  shapeCast S1600000 (extractStridedSlice S1x1600000 ![1, 0] e slices_S2x1600000_S1x1600000_1_0) shapeCasts_S1x1600000_S1600000

/-- The edges' destination row: row 0 of the edge array. -/
def rowOf (e : IVec S2x1600000 32) : IVec S1600000 32 :=
  shapeCast S1600000 (extractStridedSlice S1x1600000 ![0, 0] e slices_S2x1600000_S1x1600000_0_0) shapeCasts_S1x1600000_S1600000

/-- Start indices of the gather: a negative index counts from the end. -/
def wrapIdx (col : IVec S1600000 32) : IVec S1600000x1 32 :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 100000#32))) col)

/-- Per edge, whether its start index lies in `0 … 99999`, spread over the features. -/
def inRange (idx : IVec S1600000x1 32) : IVec S1600000x64 1 :=
  broadcastInDim S1600000x64 ![0] bcast_S1600000_S1600000x64_0
    (Host.reduce IntOp.andi
      (andi (cmpi .sge idx (broadcastInDim S1600000x1 ![] bcast_S_S1600000x1 (constantI S_ 32 0#32)))
        (cmpi .sle idx (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The gathered rows, with the not-a-number pattern where the index is out of range. -/
def takeFill (h : FVec F S100000x64 .f32) (col : IVec S1600000 32) : FVec F S1600000x64 .f32 :=
  select (inRange (wrapIdx col))
    (Host.gather gather_S100000x64_S1600000x1_S1600000x64_1_0_n_n_0_1_164 h (wrapIdx col))
    (broadcastInDim S1600000x64 ![] bcast_S_S1600000x64 (constant S_ .f32 0x7FC00000#32))

/-- The aggregated features: the gathered rows summed into the destination rows of a zero array. -/
def aggK (h : FVec F S100000x64 .f32) (e : IVec S2x1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (rowOf e))
    (takeFill h (colOf e))

section Stretches

variable (V : Valuation τ sig (Elt F))

/-- The first stretch slices the edge array: the source column … -/
theorem stretch1_col : StableHlo.after hostOps1 V (Proc.devRef .tc main_v6) = colOf (V (Proc.devRef .tc main_arg1)) := by
  dsimp only [hostOps1]
  after_results
  rfl

/-- … and the destination row; -/
theorem stretch1_row : StableHlo.after hostOps1 V (Proc.devRef .tc main_v4) = rowOf (V (Proc.devRef .tc main_arg1)) := by
  dsimp only [hostOps1]
  after_results
  rfl

/-- it leaves the hidden layer where it is. -/
theorem stretch1_h : StableHlo.after hostOps1 V (Proc.devRef .tc main_v2) = V (Proc.devRef .tc main_v2) := by
  dsimp only [hostOps1]
  after_results

/-- Reading back, at a value's own type, what was just written there at that type gives the value. -/
theorem ofBuf_toBuf {T : BufTy} (x : TRef sig T) (v : T.Contents (Elt F)) : x.ofBuf (x.toBuf v) = v := by
  obtain ⟨r, rfl, _, _⟩ := x; rfl
/-- The change of view between a buffer's type and the value's type is the identity at these three buffers. -/
theorem toBuf_v7 (v : (⟨S1600000x64, .f32⟩ : BufTy).Contents (Elt F)) :
    (TRef.of main_v7 : TRef sig ⟨S1600000x64, .f32⟩).toBuf v = v := cast_eq _ _
theorem ofBuf_v6 (v : (⟨S1600000, .i32⟩ : BufTy).Contents (Elt F)) :
    (TRef.of main_v6 : TRef sig ⟨S1600000, .i32⟩).ofBuf v = v := cast_eq _ _
theorem ofBuf_v2 (v : (⟨S100000x64, .f32⟩ : BufTy).Contents (Elt F)) :
    (TRef.of main_v2 : TRef sig ⟨S100000x64, .f32⟩).ofBuf v = v := cast_eq _ _

set_option maxHeartbeats 1000000 in
/-- The second stretch gathers the hidden layer's rows at the wrapped source indices, with the fill where out of range; -/
theorem stretch2_take : StableHlo.after hostOps1_1 V (Proc.devRef .tc main_v7)
    = takeFill (F := F) (V (Proc.devRef .tc main_v2)) (V (Proc.devRef .tc main_v6)) := by
  dsimp only [hostOps1_1]
  after_results_simp
  simp only [ofBuf_toBuf, toBuf_v7, ofBuf_v6, ofBuf_v2]
  rfl

set_option maxHeartbeats 1000000 in
/-- it leaves the destination rows where they are. -/
theorem stretch2_row : StableHlo.after hostOps1_1 V (Proc.devRef .tc main_v4) = V (Proc.devRef .tc main_v4) := by
  dsimp only [hostOps1_1]
  after_results_simp

/-- The third stretch sums the gathered rows into a zero array at the destination rows. -/
theorem stretch3_agg : StableHlo.after hostOps1_2 V (Proc.devRef .tc main_v10)
    = Host.scatterAdd scatter_S100000x64_S1600000x1_S1600000x64_1_0_0_1
        (broadcastInDim S100000x64 ![] bcast_S_S100000x64 (constant (F := F) S_ .f32 0x00000000#32))
        (broadcastInDim S1600000x1 ![0] bcast_S1600000_S1600000x1_0 (V (Proc.devRef .tc main_v4)))
        (V (Proc.devRef .tc main_v7)) := by
  dsimp only [hostOps1_2]
  after_results

end Stretches

variable (m : (ℓ : Loc nD τ sig) → Buf (Elt F) ℓ) (ρ : Dev nD → PrngReg)

/-- When the second region is entered its input array holds the aggregation of what the first region left. -/
theorem entry_main_v10 (c : Dev nD) :
    W5 m ρ c (Proc.devRef .tc main_v10)
      = aggK (F := F) (W2 m ρ c (Proc.devRef .tc main_v2)) (W2 m ρ c (Proc.devRef .tc main_arg1)) := by
  show StableHlo.after hostOps1_2 (StableHlo.after hostOps1_1 (StableHlo.after hostOps1 (W2 m ρ c))) (Proc.devRef .tc main_v10) = _
  rw [stretch3_agg, stretch2_take, stretch2_row, stretch1_col, stretch1_row, stretch1_h]
  rfl

end Cert.KernelIdeal.Mid

end
-- ==== Proof.IndexRange.lean ====
/-
  The one place the precondition is used: every source index of an edge lies in `-100000 ≤ col < 100000`, the range in
  which indexing a [100000, 64] array from either end is defined. In that range the wrapped index `col < 0 ? col + 100000 : col`
  lies in `0 … 99999`, so the in-range bit of every edge is set and the gather's fill value is never selected:
  `takeFill h col` is the plain gather.

  * `wrap_in_range`: the word-level fact, on signed 32-bit words (no overflow: `|col| ≤ 100000`);
  * `reduce_andi_of_all`: an `and`-reduction of bits that are all set, started from a set bit, is set;
  * `col_range`: the two range conjuncts read out of the printed precondition;
  * `takeFill_eq`: the fill is never selected.
-/
import proofs.«416674_j19911468384542_2_alg».proof.Proof.KernelMid
import proofs.«416674_j19911468384542_2_alg».proof.Proof.Gen.Pre_finite_inputs
import Idealize.ShloMosaic.Lib.ValueIdx
import Idealize.ShloMosaic.Lib.ReduceAll
import Idealize.ShloMosaic.Lib.StableHlo.Predicate

set_option maxRecDepth 16384

noncomputable section

namespace Cert.KernelIdeal.Mid

open Cert.KernelIdeal Cert.KernelIdeal.Gen
open Idealize.ShloMosaic Idealize.ShloMosaic.ValueIdx

variable {F : FTy → Type} [FloatOps F]

/-- A signed word in `-100000 ≤ w < 100000`, wrapped from the end when negative, lies in `0 ≤ · ≤ 99999`. -/
theorem wrap_in_range (w : BitVec 32)
    (hlo : IntOp.cmpi .sge w 4294867296#32 = 1#1) (hhi : IntOp.cmpi .slt w 100000#32 = 1#1) :
    IntOp.cmpi .sge (Scalar.select (IntOp.cmpi .slt w 0#32) (IntOp.addi w 100000#32) w) 0#32 = 1#1
      ∧ IntOp.cmpi .sle (Scalar.select (IntOp.cmpi .slt w 0#32) (IntOp.addi w 100000#32) w) 99999#32 = 1#1 := by
  unfold IntOp.cmpi at hlo hhi ⊢
  simp only [StableHlo.Predicate.ofBool_eq_one_iff] at hlo hhi ⊢
  have h1 : (4294867296#32 : BitVec 32).toInt = -100000 := by decide
  have h2 : (100000#32 : BitVec 32).toInt = 100000 := by decide
  have h3 : (0#32 : BitVec 32).toInt = 0 := by decide
  have h4 : (99999#32 : BitVec 32).toInt = 99999 := by decide
  rw [BitVec.sle_iff_toInt_le, h1] at hlo
  rw [BitVec.slt_iff_toInt_lt, h2] at hhi
  by_cases hneg : w.toInt < 0
  · have hb : w.slt 0#32 = true := by rw [BitVec.slt_iff_toInt_lt, h3]; exact hneg
    rw [hb]
    show (0#32).sle (w + 100000#32) = true ∧ (w + 100000#32).sle 99999#32 = true
    have hs : (w + 100000#32).toInt = w.toInt + 100000 := by
      rw [BitVec.toInt_add, h2, Int.bmod_def]
      omega
    rw [BitVec.sle_iff_toInt_le, BitVec.sle_iff_toInt_le, hs, h3, h4]
    omega
  · have hb : w.slt 0#32 = false := by
      rw [Bool.eq_false_iff]; intro h; rw [BitVec.slt_iff_toInt_lt, h3] at h; exact hneg h
    rw [hb]
    show (0#32).sle w = true ∧ w.sle 99999#32 = true
    rw [BitVec.sle_iff_toInt_le, BitVec.sle_iff_toInt_le, h3, h4]
    omega

/-- An `and`-reduction whose operand's bits are all set, from a set bit, is set at every result index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl]
  have key : ∀ (l : List s.Idx) (r : BitVec 1), r = 1#1 → l.foldl (fun r i => IntOp.andi r (x i)) r = 1#1 := by
    intro l
    induction l with
    | nil => intro r hr; exact hr
    | cons a l ih => intro r hr; exact ih _ (IntOp.andi_eq_one.2 ⟨hr, hx a⟩)
  exact key _ _ hi

/-- The in-range bit is set at every edge and feature when every source index is in `-100000 ≤ · < 100000`. -/
theorem inRange_eq_one (col : IVec S1600000 32)
    (hr : ∀ i : S1600000.Idx, IntOp.cmpi .sge (col i) 4294867296#32 = 1#1 ∧ IntOp.cmpi .slt (col i) 100000#32 = 1#1)
    (j : S1600000x64.Idx) : inRange (wrapIdx col) j = 1#1 := by
  unfold inRange
  show Host.reduce IntOp.andi _ _ reducesTo_S1600000x1_S1600000_d1 h_S_ _ = 1#1
  refine reduce_andi_of_all _ _ _ _ _ (fun i => ?_) rfl
  exact IntOp.andi_eq_one.2 ⟨(wrap_in_range _ (hr _).1 (hr _).2).1, (wrap_in_range _ (hr _).1 (hr _).2).2⟩

/-- In that range the gather's fill value is never selected. -/
theorem takeFill_eq (h : FVec F S100000x64 .f32) (col : IVec S1600000 32)
    (hr : ∀ i : S1600000.Idx, IntOp.cmpi .sge (col i) 4294867296#32 = 1#1 ∧ IntOp.cmpi .slt (col i) 100000#32 = 1#1) :
    takeFill h col = Host.gather gather_S100000x64_S1600000x1_S1600000x64_1_0_n_n_0_1_164 h (wrapIdx col) := by
  funext j
  unfold takeFill
  rw [select_apply, inRange_eq_one col hr j, select_one]

instance : Subsingleton Cert.Pre_finite_inputs.S_.Idx := ⟨fun a b => funext fun d => d.elim0⟩

/-- The two range conjuncts of the precondition, at every edge. -/
theorem col_range (a0 : FVec F S100000x256 .f32) (a1 : IVec S2x1600000 32) (a2 : FVec F S64x256 .f32) (a3 : FVec F S64 .f32)
    (a4 : FVec F S40x64 .f32) (a5 : FVec F S40 .f32)
    (hpre : Cert.Pre_finite_inputs.fn (F := F) a0 a1 a2 a3 a4 a5 = fun _ => 1#1) (i : S1600000.Idx) :
    IntOp.cmpi .sge (colOf a1 i) 4294867296#32 = 1#1 ∧ IntOp.cmpi .slt (colOf a1 i) 100000#32 = 1#1 := by
  have h0 := congrFun hpre ix0
  dsimp only [Cert.Pre_finite_inputs.fn, Cert.Pre_finite_inputs.fn_part1, Cert.Pre_finite_inputs.fn_part2] at h0
  obtain ⟨h1, hlt⟩ := IntOp.andi_eq_one.1 h0
  obtain ⟨-, hge⟩ := IntOp.andi_eq_one.1 h1
  exact ⟨Host.reduce_andi_all _ _ _ _ ix0 hge i, Host.reduce_andi_all _ _ _ _ ix0 hlt i⟩

end Cert.KernelIdeal.Mid

end
-- ==== Proof.Spec.lean ====
/-
  The mathematics both programs compute, as functions of whole arrays read index by index on the
  extended reals.

  * `hidden x wt b`: row `p`, column `q` of the first layer is `max (∑ₖ x[p,k] · wt[k,q] + b[q]) 0`,
    with `wt` the weight matrix already transposed to [256, 64].
  * `logit a wt b p j`: `∑ₖ a[p,k] · wt[k,j] + b[j]`, the second layer before normalisation, with `wt` of
    shape [64, 40].
  * `rowMax l`: the greatest of the forty entries of a row, folded from the pattern of `-∞`.
  * `logSoftmax a wt b`: `(l j - M) - log (∑ⱼ' exp (l j' - M))` with `l = logit a wt b p` and `M = rowMax l`:
    the row-wise log-softmax with the usual shift by the row's maximum.

  Also the one order fact used about `rowMax`: folding `max` from a value never goes below that value, so
  taking `max` with the starting value again changes nothing.
-/
import Idealize.ShloMosaic.PureOps.Ideal
import Idealize.ShloMosaic.Lib.ValueIdx

noncomputable section

open scoped BigOperators

namespace Cert.Gnn

open Idealize.ShloMosaic Idealize.ShloMosaic.ValueIdx

/-- The bit pattern of `-∞` read at the extended reals; both programs start the row maximum from it. -/
abbrev negInf : EReal := Ideal.ofBits .f32 0xFF800000#32

/-- First layer: `relu (x · wt + b)` at row `i 0`, column `i 1`. -/
def hidden (x : (⟨2, ![100000, 256]⟩ : Shape).Idx → EReal) (wt : (⟨2, ![256, 64]⟩ : Shape).Idx → EReal)
    (b : (⟨1, ![64]⟩ : Shape).Idx → EReal) : (⟨2, ![100000, 64]⟩ : Shape).Idx → EReal :=
  fun i => max ((∑ k : Fin 256, x (ix2 (⟨(i 0).val, idx2_lt0 i⟩ : Fin 100000) k) * wt (ix2 k (⟨(i 1).val, idx2_lt1 i⟩ : Fin 64)))
    + b (ix1 (⟨(i 1).val, idx2_lt1 i⟩ : Fin 64))) 0

/-- Second layer before normalisation, at row `p` and class `j`. -/
def logit (a : (⟨2, ![100000, 64]⟩ : Shape).Idx → EReal) (wt : (⟨2, ![64, 40]⟩ : Shape).Idx → EReal)
    (b : (⟨1, ![40]⟩ : Shape).Idx → EReal) (p : Fin 100000) (j : Fin 40) : EReal :=
  (∑ k : Fin 64, a (ix2 p k) * wt (ix2 k j)) + b (ix1 j)

/-- The greatest entry of a row of forty, folded from `-∞`'s pattern. -/
def rowMax (l : Fin 40 → EReal) : EReal := (Finset.univ : Finset (Fin 40)).fold max negInf l

/-- Row-wise log-softmax of the second layer. -/
def logSoftmax (a : (⟨2, ![100000, 64]⟩ : Shape).Idx → EReal) (wt : (⟨2, ![64, 40]⟩ : Shape).Idx → EReal)
    (b : (⟨1, ![40]⟩ : Shape).Idx → EReal) : (⟨2, ![100000, 40]⟩ : Shape).Idx → EReal :=
  fun i =>
    (logit a wt b ⟨(i 0).val, idx2_lt0 i⟩ ⟨(i 1).val, idx2_lt1 i⟩ - rowMax (logit a wt b ⟨(i 0).val, idx2_lt0 i⟩))
      - Ideal.log (∑ j' : Fin 40, Ideal.exp (logit a wt b ⟨(i 0).val, idx2_lt0 i⟩ j' - rowMax (logit a wt b ⟨(i 0).val, idx2_lt0 i⟩)))

/-- A fold of `max` from `negInf` is at least `negInf`. -/
theorem negInf_le_rowMax (l : Fin 40 → EReal) : negInf ≤ rowMax l :=
  (Finset.le_fold_max (s := (Finset.univ : Finset (Fin 40))) (f := l) negInf).mpr (Or.inl le_rfl)

/-- So taking the maximum with `negInf` once more changes nothing. -/
theorem max_negInf_rowMax (l : Fin 40 → EReal) : max negInf (rowMax l) = rowMax l :=
  max_eq_right (negInf_le_rowMax l)

end Cert.Gnn

end
-- ==== Proof.Region0.lean ====
/-
  The first region, the linear layer with its rectifier, read as mathematics: the array it leaves is
  `Cert.Gnn.hidden` of the three arrays it reads, whatever those hold when the region is entered.

  * `pay0_apply`: the body's value at row `p`, column `q` of a block is
    `max (∑ₖ x[p,k] · w[k,q] + b[q]) 0`: the product into a zero accumulator is the bare sum over the one
    contracted axis, the bias row is read at the column, and the rectifier is the maximum with zero.
  * `idx_facts0`: the four index maps over the ten grid points: the row-blocked windows sit at block
    `(t, 0)`, the weight and the bias at block zero.
  * `flushed0_eq`: so what point `t` writes back is block `t` of `hidden`: row `p` of block `t` is row
    `10000 t + p` of the array.
  * `region0_array`: the ten blocks of 10000 rows cover the 100000 rows (row `r` lies in block
    `r / 10000`), so the array ends holding `hidden`.
-/
import proofs.«416674_j19911468384542_2_alg».proof.Proof.Gen.KernelIdeal.Frame
import proofs.«416674_j19911468384542_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

/-! ## The product's operand indices, axis by axis -/

theorem lhs0_0 (i : S10000x64.Idx) (q : dot_S10000x256_S256x64_S10000x64_1_0_0_1_n_n.contr.Idx) :
    (dot_S10000x256_S256x64_S10000x64_1_0_0_1_n_n.lhsIdx i q 0).val = (i 0).val := by
  unfold DotDims.lhsIdx
  rw [dif_neg (show ¬(0 : Fin S10000x256.rank) ∈ dot_S10000x256_S256x64_S10000x64_1_0_0_1_n_n.lhsBatch by decide), dif_pos (show (0 : Fin S10000x256.rank) ∈ dot_S10000x256_S256x64_S10000x64_1_0_0_1_n_n.lhsNonContracting by decide)]
  rfl
theorem lhs0_1 (i : S10000x64.Idx) (q : dot_S10000x256_S256x64_S10000x64_1_0_0_1_n_n.contr.Idx) :
    (dot_S10000x256_S256x64_S10000x64_1_0_0_1_n_n.lhsIdx i q 1).val = (q ⟨0, by decide⟩).val :=
  dot_S10000x256_S256x64_S10000x64_1_0_0_1_n_n.lhsIdx_val_of_single rfl i q
theorem rhs0_0 (i : S10000x64.Idx) (q : dot_S10000x256_S256x64_S10000x64_1_0_0_1_n_n.contr.Idx) :
    (dot_S10000x256_S256x64_S10000x64_1_0_0_1_n_n.rhsIdx i q 0).val = (q ⟨0, by decide⟩).val :=
  dot_S10000x256_S256x64_S10000x64_1_0_0_1_n_n.rhsIdx_val_of_single rfl i q
theorem rhs0_1 (i : S10000x64.Idx) (q : dot_S10000x256_S256x64_S10000x64_1_0_0_1_n_n.contr.Idx) :
    (dot_S10000x256_S256x64_S10000x64_1_0_0_1_n_n.rhsIdx i q 1).val = (i 1).val := by
  unfold DotDims.rhsIdx
  rw [dif_neg (show ¬(1 : Fin S256x64.rank) ∈ dot_S10000x256_S256x64_S10000x64_1_0_0_1_n_n.rhsBatch by decide), dif_pos (show (1 : Fin S256x64.rank) ∈ dot_S10000x256_S256x64_S10000x64_1_0_0_1_n_n.rhsNonContracting by decide)]
  rfl

/-- The block product into the zero accumulator, at row `p` and column `q`: the sum over the contracted axis. -/
theorem matmul0_apply (x0 : FVec Ideal S10000x256 .f32) (y : FVec Ideal S256x64 .f32) (p : Fin 10000) (q : Fin 64) :
    matmul dot_S10000x256_S256x64_S10000x64_1_0_0_1_n_n (some .fp32) x0 y (constant (F := Ideal) S10000x64 .f32 0x00000000#32) (ix2 p q)
      = ∑ k : Fin 256, x0 (ix2 p k) * y (ix2 k q) := by
  simp only [matmul]
  rw [Ideal.matmul_constant_zero_apply, ← Equiv.sum_comp (contrEquiv1 dot_S10000x256_S256x64_S10000x64_1_0_0_1_n_n 256 rfl rfl).symm]
  refine Finset.sum_congr rfl fun k _ => ?_
  have hk := contrEquiv1_symm_val dot_S10000x256_S256x64_S10000x64_1_0_0_1_n_n 256 rfl rfl k
  have el : dot_S10000x256_S256x64_S10000x64_1_0_0_1_n_n.lhsIdx (ix2 p q) ((contrEquiv1 dot_S10000x256_S256x64_S10000x64_1_0_0_1_n_n 256 rfl rfl).symm k) = ix2 p k := funext fun a => Fin.ext (by
    match a with
    | ⟨0, _⟩ => exact lhs0_0 _ _
    | ⟨1, _⟩ => exact (lhs0_1 _ _).trans hk)
  have er : dot_S10000x256_S256x64_S10000x64_1_0_0_1_n_n.rhsIdx (ix2 p q) ((contrEquiv1 dot_S10000x256_S256x64_S10000x64_1_0_0_1_n_n 256 rfl rfl).symm k) = ix2 k q := funext fun a => Fin.ext (by
    match a with
    | ⟨0, _⟩ => exact (rhs0_0 _ _).trans hk
    | ⟨1, _⟩ => exact rhs0_1 _ _)
  rw [el, er]

/-- THE BODY'S VALUE at row `p`, column `q` of a block. -/
theorem pay0_apply (x0 : Vec Ideal S10000x256 .f32) (x1 : Vec Ideal S256x64 .f32) (x2 : Vec Ideal S64 .f32) (p : Fin 10000) (q : Fin 64) :
    k0_pay1 (F := Ideal) x0 x1 x2 (ix2 p q) = max ((∑ k : Fin 256, x0 (ix2 p k) * x1 (ix2 k q)) + x2 (ix1 q)) 0 := by
  unfold k0_pay1
  rw [maximumf_apply, addf_apply, broadcast_apply, shapeCast_self, matmul0_apply,
    broadcastTo_1b_ab_apply, shapeCast_a_1a_apply]
  show max _ (Ideal.ofBits .f32 0x00000000#32) = _
  rw [Ideal.ofBits_zero_f32]

/-! ## The blocks at a grid point, read off the arrays -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps, decided over the ten grid points: the row-blocked windows sit at block `(t, 0)`, the
    weight's and the bias's windows at block zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the input block at point `t` is row `10000 t + p` of the array. -/
theorem xblk_apply (c : Dev nD) (t : Fin cfg0.N) (p : Fin 10000) (k : Fin 256) (r : Fin 100000)
    (hr : r.val = t.val * 10000 + p.val) :
    (iblk0 V c 0 t : Vec Ideal S10000x256 .f32) (ix2 p k) = (V c main_arg0 : S100000x256.Idx → Elt Ideal .f32) (ix2 r k) := by
  obtain ⟨e0, e1, -⟩ := idx_facts0 t
  unfold iblk0
  rw [View.read_apply]
  show (V c main_arg0 : S100000x256.Idx → Elt Ideal .f32) (((cfg0.win 0).blk t).view.emb (ix2 p k)) = (V c main_arg0 : S100000x256.Idx → Elt Ideal .f32) (ix2 r k)
  congr 1
  funext a
  apply Fin.ext
  match a with
  | ⟨0, _⟩ => show win0_0.index t (0 : Fin 2) * 10000 + 1 * p.val = r.val; omega
  | ⟨1, _⟩ => show win0_0.index t (1 : Fin 2) * 256 + 1 * k.val = k.val; omega

/-- The weight's block at every point is the whole array. -/
theorem wblk_apply (c : Dev nD) (t : Fin cfg0.N) (k : Fin 256) (q : Fin 64) :
    (iblk0 V c 1 t : Vec Ideal S256x64 .f32) (ix2 k q) = (V c main_v0 : S256x64.Idx → Elt Ideal .f32) (ix2 k q) := by
  obtain ⟨-, -, e2, e3, -⟩ := idx_facts0 t
  unfold iblk0
  rw [View.read_apply]
  show (V c main_v0 : S256x64.Idx → Elt Ideal .f32) (((cfg0.win 1).blk t).view.emb (ix2 k q)) = (V c main_v0 : S256x64.Idx → Elt Ideal .f32) (ix2 k q)
  congr 1
  funext a
  apply Fin.ext
  match a with
  | ⟨0, _⟩ => show win0_1.index t (0 : Fin 2) * 256 + 1 * k.val = k.val; omega
  | ⟨1, _⟩ => show win0_1.index t (1 : Fin 2) * 64 + 1 * q.val = q.val; omega

/-- The bias's block at every point is the whole array. -/
theorem bblk_apply (c : Dev nD) (t : Fin cfg0.N) (q : Fin 64) :
    (iblk0 V c 2 t : Vec Ideal S64 .f32) (ix1 q) = (V c main_arg3 : S64.Idx → Elt Ideal .f32) (ix1 q) := by
  obtain ⟨-, -, -, -, e4, -⟩ := idx_facts0 t
  unfold iblk0
  rw [View.read_apply]
  show (V c main_arg3 : S64.Idx → Elt Ideal .f32) (((cfg0.win 2).blk t).view.emb (ix1 q)) = (V c main_arg3 : S64.Idx → Elt Ideal .f32) (ix1 q)
  congr 1
  funext a
  apply Fin.ext
  match a with
  | ⟨0, _⟩ => show win0_2.index t (0 : Fin 1) * 64 + 1 * q.val = q.val; omega

/-- An element of the output block at point `t` sits at row `10000 t + p` of the array, in its own column. -/
theorem oemb_apply (t : Fin cfg0.N) (p : Fin 10000) (q : Fin 64) (r : Fin 100000) (hr : r.val = t.val * 10000 + p.val) :
    ((cfg0.win 3).blk t).view.emb (ix2 p q) = (ix2 r q : S100000x64.Idx) := by
  obtain ⟨-, -, -, -, -, e5, e6⟩ := idx_facts0 t
  funext a
  apply Fin.ext
  match a with
  | ⟨0, _⟩ => show win0_3.index t (0 : Fin 2) * 10000 + 1 * p.val = r.val; omega
  | ⟨1, _⟩ => show win0_3.index t (1 : Fin 2) * 64 + 1 * q.val = q.val; omega

/-- The specification at row `r`, column `q`. -/
theorem hidden_ix2 (x : S100000x256.Idx → EReal) (wt : S256x64.Idx → EReal) (b : S64.Idx → EReal) (r : Fin 100000) (q : Fin 64) :
    Cert.Gnn.hidden x wt b (ix2 r q) = max ((∑ k : Fin 256, x (ix2 r k) * wt (ix2 k q)) + b (ix1 q)) 0 := rfl

/-! ## What a point writes back, and the array after the region -/

/-- WHAT POINT `t` WRITES BACK is block `t` of `hidden` of the arrays as the region finds them. -/
theorem flushed0_eq (c : Dev nD) (t : Fin cfg0.N) :
    (dat0 (F := Ideal) V c).flushed 3 t
      = ((cfg0.win 3).blk t).view.read (Elt Ideal) (Cert.Gnn.hidden (V c main_arg0) (V c main_v0) (V c main_arg3)) := by
  show (cfg0.win 3).cut (grid0.coords t) ((dat0 V c).after 3 t) = _
  rw [after0_3]
  unfold out0_3
  rw [View.canon_unit_zero hz]
  simp only [View.ld_unit_zero (S := S10000x256) hz, View.ld_unit_zero (S := S256x64) hz, View.ld_unit_zero (S := S64) hz1]
  funext j
  obtain ⟨p, q, rfl⟩ : ∃ (p : Fin 10000) (q : Fin 64), j = ix2 p q := ⟨j 0, j 1, eq_ix2 j⟩
  have hN : cfg0.N = 10 := N_0
  have ht : t.val < 10 := lt_of_lt_of_eq t.isLt hN
  have hp : p.val < 10000 := p.isLt
  rw [View.read_apply, oemb_apply t p q ⟨t.val * 10000 + p.val, by omega⟩ rfl]
  show k0_pay1 (F := Ideal) (iblk0 V c 0 t) (iblk0 V c 1 t) (iblk0 V c 2 t) (ix2 p q)
    = Cert.Gnn.hidden (V c main_arg0) (V c main_v0) (V c main_arg3) (ix2 (⟨t.val * 10000 + p.val, by omega⟩ : Fin 100000) q)
  rw [pay0_apply, hidden_ix2]
  simp only [xblk_apply V c t p _ ⟨t.val * 10000 + p.val, by omega⟩ rfl, wblk_apply, bblk_apply]

/-- An index of the array is in point `t`'s block iff each coordinate is in the block's range on its axis. -/
theorem mem_oblk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v2).slice (win0_3.rect t)).set ↔ _
  rw [View.set_slice_whole, Rect.mem_set_unit]
  exact Iff.rfl

/-- Row `r` lies in the block of point `r / 10000`: the ten blocks cover the array. -/
theorem cover0 (i : S100000x64.Idx) :
    ∃ t : Fin cfg0.N, (cfg0.win 3).flush t = true ∧ i ∈ ((cfg0.win 3).blk t).view.set := by
  have hN : grid0.N = 10 := N_0
  have hi0 : (i 0).val < 100000 := (i 0).isLt
  have hi1 : (i 1).val < 64 := (i 1).isLt
  have htl : (i 0).val / 10000 < grid0.N := by rw [hN]; omega
  obtain ⟨-, -, -, -, -, e5, e6⟩ := idx_facts0 ⟨(i 0).val / 10000, htl⟩
  refine ⟨⟨(i 0).val / 10000, htl⟩, flush0_3 _, ?_⟩
  rw [mem_oblk]
  intro a
  match a with
  | ⟨0, _⟩ =>
    show win0_3.index ⟨(i 0).val / 10000, htl⟩ (0 : Fin 2) * 10000 ≤ (i 0).val ∧ (i 0).val < win0_3.index ⟨(i 0).val / 10000, htl⟩ (0 : Fin 2) * 10000 + 10000
    rw [e5]
    show (i 0).val / 10000 * 10000 ≤ (i 0).val ∧ (i 0).val < (i 0).val / 10000 * 10000 + 10000
    omega
  | ⟨1, _⟩ =>
    show win0_3.index ⟨(i 0).val / 10000, htl⟩ (1 : Fin 2) * 64 ≤ (i 1).val ∧ (i 1).val < win0_3.index ⟨(i 0).val / 10000, htl⟩ (1 : Fin 2) * 64 + 64
    rw [e6]
    omega

/-- THE ARRAY AFTER THE REGION: `hidden` of the three arrays the region reads, as it finds them. -/
theorem region0_array (c : Dev nD) :
    (dat0 (F := Ideal) V c).arrAt 3 cfg0.N = Cert.Gnn.hidden (V c main_arg0) (V c main_v0) (V c main_arg3) :=
  (dat0 (F := Ideal) V c).arrAt_eq_of_cover 3 (Cert.Gnn.hidden (V c main_arg0) (V c main_v0) (V c main_arg3))
    (fun t _ => flushed0_eq V c t) cover0

end Cert.KernelIdeal.Hand

end
-- ==== Proof.Region1.lean ====
/-
  Region 1 (the second layer with its row-wise log-softmax), from blocks to the whole array.

  * The body's arithmetic read at one element (p, j) of a block: the logits of the block's own row p
    (the sum over k of x0[p,k] * x1[k,j], plus x2[j]), the row's maximum folded from the pattern of minus infinity,
    the shifted row, and the logarithm of the sum of its exponentials.
  * What a grid point writes back: its block of Cert.Gnn.logSoftmax of the arrays the region finds.
  * The ten row blocks cover the result array, so it ends holding Cert.Gnn.logSoftmax everywhere.
-/
import proofs.«416674_j19911468384542_2_alg».proof.Proof.Gen.KernelIdeal.Frame
import proofs.«416674_j19911468384542_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Hand1

open Cert.KernelIdeal Cert.KernelIdeal.Gen

/-! ## Layout operations at an index: a column kept as a unit axis -/

section Column
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector of row values spread over the lanes reads the row's value. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- The bias row spread over the rows reads the bias at the lane. -/
theorem row_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

end Column

/-! ## The product at an index -/

theorem lhs_0 (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem lhs_1 (i : S10000x40.Idx) (q : dot_S10000x64_S64x40_S10000x40_1_0_0_1_n_n.contr.Idx) :
    (dot_S10000x64_S64x40_S10000x40_1_0_0_1_n_n.lhsIdx i q 1).val = (q ⟨0, by decide⟩).val :=
  dot_S10000x64_S64x40_S10000x40_1_0_0_1_n_n.lhsIdx_val_of_single rfl i q
theorem rhs_0 (i : S10000x40.Idx) (q : dot_S10000x64_S64x40_S10000x40_1_0_0_1_n_n.contr.Idx) :
    (dot_S10000x64_S64x40_S10000x40_1_0_0_1_n_n.rhsIdx i q 0).val = (q ⟨0, by decide⟩).val :=
  dot_S10000x64_S64x40_S10000x40_1_0_0_1_n_n.rhsIdx_val_of_single rfl i q
theorem rhs_1 (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The block's product into the zero accumulator, at row p and lane j: the sum over the 64 hidden units. -/
theorem matmul_at (y0 : FVec Ideal S10000x64 .f32) (y1 : FVec Ideal S64x40 .f32) (p : Fin 10000) (j : Fin 40) :
    matmul dot_S10000x64_S64x40_S10000x40_1_0_0_1_n_n (some .fp32) y0 y1 (constant (F := Ideal) S10000x40 .f32 0x00000000#32) (ix2 p j)
      = ∑ k : Fin 64, y0 (ix2 p k) * y1 (ix2 k j) := by
  simp only [matmul]
  rw [Ideal.matmul_constant_zero_apply, ← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p j) ((contrEquiv1 dot_S10000x64_S64x40_S10000x40_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x40_S10000x40_1_0_0_1_n_n.rhsIdx (ix2 p j) ((contrEquiv1 dot_S10000x64_S64x40_S10000x40_1_0_0_1_n_n 64 rfl rfl).symm k) = ix2 k j := funext fun a => Fin.ext (by
    match a with
    | ⟨0, _⟩ => exact (rhs_0 _ _).trans hk
    | ⟨1, _⟩ => exact rhs_1 _ _)
  rw [el, er]

/-! ## The two reductions over the forty lanes, at a row -/

/-- The maximum over the lanes, folded from the accumulator's pattern. -/
theorem rowmax_at (src : FVec Ideal S10000x40 .f32) (h : S10000x40.Reduces [1] S10000) (hφ : FKind.Formats .f32)
    (hacc : (0xFF800000#32 : BitVec 32) = 0xFF800000#32) (p : Fin 10000) :
    multiReduction (F := Ideal) .maximumf [1] S10000 src 0xFF800000#32 h hφ hacc (ix1 p)
      = (Finset.univ : Finset (Fin 40)).fold max (Ideal.ofBits .f32 0xFF800000#32) (fun j => src (ix2 p j)) := by
  refine (Ideal.multiReduction_maximumf_single src 0xFF800000#32 h hφ hacc (ix1 p)).trans ?_
  refine congrArg (fun f => (Finset.univ : Finset (Fin 40)).fold max (Ideal.ofBits .f32 0xFF800000#32) f) (funext fun k => ?_)
  exact congrArg src (funext fun a => Fin.ext (match a with | ⟨0, _⟩ => rfl | ⟨1, _⟩ => rfl))

/-- The sum over the lanes. -/
theorem rowsum_at (src : FVec Ideal S10000x40 .f32) (h : S10000x40.Reduces [1] S10000) (hφ : FKind.Formats .f32)
    (hacc : (0x00000000#32 : BitVec 32) = 0x00000000#32) (p : Fin 10000) :
    multiReduction (F := Ideal) .add [1] S10000 src 0x00000000#32 h hφ hacc (ix1 p) = ∑ j : Fin 40, src (ix2 p j) := by
  refine (Ideal.multiReduction_add_single src 0x00000000#32 h hφ hacc (ix1 p)).trans ?_
  refine Finset.sum_congr rfl fun k _ => ?_
  exact congrArg src (funext fun a => Fin.ext (match a with | ⟨0, _⟩ => rfl | ⟨1, _⟩ => rfl))

/-! ## The body's value at an element -/

/-- The logits of row p of a block: the sum over k of x0[p,k] * x1[k,j], plus x2[j]. -/
def blkLogit (x0 : Vec Ideal S10000x64 .f32) (x1 : Vec Ideal S64x40 .f32) (x2 : Vec Ideal S40 .f32) (p : Fin 10000) (j : Fin 40) : EReal :=
  (∑ k : Fin 64, x0 (ix2 p k) * x1 (ix2 k j)) + x2 (ix1 j)

/-- The row-wise log-softmax of a block's logits, at row p and lane j. -/
def blkLogSoftmax (x0 : Vec Ideal S10000x64 .f32) (x1 : Vec Ideal S64x40 .f32) (x2 : Vec Ideal S40 .f32) (p : Fin 10000) (j : Fin 40) : EReal :=
  (blkLogit x0 x1 x2 p j - Cert.Gnn.rowMax (blkLogit x0 x1 x2 p))
    - Ideal.log (∑ j' : Fin 40, Ideal.exp (blkLogit x0 x1 x2 p j' - Cert.Gnn.rowMax (blkLogit x0 x1 x2 p)))

/-- The body's logits as a vector: the product into the zero accumulator plus the bias row. -/
def lgV (x0 : Vec Ideal S10000x64 .f32) (x1 : Vec Ideal S64x40 .f32) (x2 : Vec Ideal S40 .f32) : FVec Ideal S10000x40 .f32 :=
  addf (matmul (φ₁ := .f32) (φ₂ := .f32) dot_S10000x64_S64x40_S10000x40_1_0_0_1_n_n (some .fp32) (shapeCast S10000x64 x0 shapeCasts_S10000x64_S10000x64)
      (shapeCast S64x40 x1 shapeCasts_S64x40_S64x40) (constant (F := Ideal) S10000x40 .f32 0x00000000#32))
    (broadcastTo S10000x40 (shapeCast S1x40 x2 shapeCasts_S40_S1x40) broadcasts_S1x40_S10000x40)

/-- The rows' maxima. -/
def mxV (l : FVec Ideal S10000x40 .f32) : FVec Ideal S10000 .f32 :=
  multiReduction (F := Ideal) .maximumf [1] S10000 l 0xFF800000#32 reduces_S10000x40_S10000 (.inl rfl) rfl

/-- The rows shifted by their maxima. -/
def shV (l : FVec Ideal S10000x40 .f32) : FVec Ideal S10000x40 .f32 :=
  subf l (broadcastTo S10000x40 (shapeCast S10000x1 (mxV l) shapeCasts_S10000_S10000x1) broadcasts_S10000x1_S10000x40)

/-- The sums of the rows' exponentials. -/
def seV (s : FVec Ideal S10000x40 .f32) : FVec Ideal S10000 .f32 :=
  multiReduction (F := Ideal) .add [1] S10000 (Idealize.ShloMosaic.exp s) 0x00000000#32 reduces_S10000x40_S10000 (.inl rfl) rfl

/-- The shifted rows less the logarithm of those sums. -/
def outV (s : FVec Ideal S10000x40 .f32) : FVec Ideal S10000x40 .f32 :=
  subf s (broadcastTo S10000x40 (Idealize.ShloMosaic.log (shapeCast S10000x1 (seV s) shapeCasts_S10000_S10000x1)) broadcasts_S10000x1_S10000x40)

set_option maxRecDepth 65536 in
/-- The body's payload is that chain of vectors. -/
theorem pay_eq (x0 : Vec Ideal S10000x64 .f32) (x1 : Vec Ideal S64x40 .f32) (x2 : Vec Ideal S40 .f32) :
    k1_pay1 (F := Ideal) x0 x1 x2 = outV (shV (lgV x0 x1 x2)) := rfl

theorem lgV_apply (x0 : Vec Ideal S10000x64 .f32) (x1 : Vec Ideal S64x40 .f32) (x2 : Vec Ideal S40 .f32) (p : Fin 10000) (j : Fin 40) :
    lgV x0 x1 x2 (ix2 p j) = blkLogit x0 x1 x2 p j := by
  unfold lgV blkLogit
  rw [shapeCast_self, shapeCast_self]
  exact congrArg₂ (· + ·) (matmul_at x0 x1 p j) (row_apply x2 _ _ p j)

theorem mxV_apply (l : FVec Ideal S10000x40 .f32) (p : Fin 10000) :
    mxV l (ix1 p) = Cert.Gnn.rowMax (fun j => l (ix2 p j)) :=
  rowmax_at l _ _ rfl p

theorem shV_apply (l : FVec Ideal S10000x40 .f32) (p : Fin 10000) (j : Fin 40) :
    shV l (ix2 p j) = l (ix2 p j) - Cert.Gnn.rowMax (fun j' => l (ix2 p j')) :=
  congrArg (l (ix2 p j) - ·) ((column_apply (mxV l) _ _ p j).trans (mxV_apply l p))

theorem seV_apply (s : FVec Ideal S10000x40 .f32) (p : Fin 10000) :
    seV s (ix1 p) = ∑ j' : Fin 40, Ideal.exp (s (ix2 p j')) :=
  rowsum_at (Idealize.ShloMosaic.exp s) _ _ rfl p

theorem outV_apply (s : FVec Ideal S10000x40 .f32) (p : Fin 10000) (j : Fin 40) :
    outV s (ix2 p j) = s (ix2 p j) - Ideal.log (∑ j' : Fin 40, Ideal.exp (s (ix2 p j'))) :=
  congrArg (s (ix2 p j) - ·) ((broadcastTo_a1_ab_apply _ _ p j).trans
    (congrArg Ideal.log ((shapeCast_a_a1_apply (seV s) _ p 0).trans (seV_apply s p))))

/-- THE BODY'S VALUE AT (p, j): the row-wise log-softmax of the block's own row p. -/
theorem pay_apply (x0 : Vec Ideal S10000x64 .f32) (x1 : Vec Ideal S64x40 .f32) (x2 : Vec Ideal S40 .f32) (p : Fin 10000) (j : Fin 40) :
    k1_pay1 (F := Ideal) x0 x1 x2 (ix2 p j) = blkLogSoftmax x0 x1 x2 p j := by
  rw [pay_eq, outV_apply]
  have hs : ∀ j' : Fin 40, shV (lgV x0 x1 x2) (ix2 p j') = blkLogit x0 x1 x2 p j' - Cert.Gnn.rowMax (blkLogit x0 x1 x2 p) := fun j' => by
    rw [shV_apply, lgV_apply]
    exact congrArg (fun f => blkLogit x0 x1 x2 p j' - Cert.Gnn.rowMax f) (funext fun j'' => lgV_apply x0 x1 x2 p j'')
  unfold blkLogSoftmax
  rw [hs j]
  exact congrArg (fun f : Fin 40 → EReal => (blkLogit x0 x1 x2 p j - Cert.Gnn.rowMax (blkLogit x0 x1 x2 p)) - Ideal.log (∑ j' : Fin 40, Ideal.exp (f j')))
    (funext hs)

/-! ## From blocks to the array -/

section Array

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps, decided over the grid: the two row-blocked windows sit at block (t, 0), the weight and
    the bias at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The aggregated features' block at point t is rows 10000 t … 10000 t + 9999 of the array. -/
theorem iblk_a (c : Dev nD) (t : Fin cfg1.N) (p : Fin 10000) (k : Fin 64) (r : Fin 100000) (hr : r.val = t.val * 10000 + p.val) :
    (iblk1 V c 0 t : Vec Ideal S10000x64 .f32) (ix2 p k) = (V c main_v10 : S100000x64.Idx → EReal) (ix2 r k) := by
  obtain ⟨e0, e1, -⟩ := idx_facts t
  unfold iblk1
  rw [View.read_apply]
  show V c main_v10 _ = V c main_v10 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The weight's block at every point is the whole array. -/
theorem iblk_w (c : Dev nD) (t : Fin cfg1.N) (k : Fin 64) (j : Fin 40) :
    (iblk1 V c 1 t : Vec Ideal S64x40 .f32) (ix2 k j) = (V c main_v1 : S64x40.Idx → EReal) (ix2 k j) := by
  obtain ⟨-, -, e2, e3, -⟩ := idx_facts t
  unfold iblk1
  rw [View.read_apply]
  show V c main_v1 _ = V c main_v1 _
  congr 1
  funext a
  apply Fin.ext
  match a with
  | ⟨0, _⟩ => show win1_1.index t (0 : Fin 2) * 64 + 1 * k.val = k.val; rw [e2]; omega
  | ⟨1, _⟩ => show win1_1.index t (1 : Fin 2) * 40 + 1 * j.val = j.val; rw [e3]; omega

/-- The bias's block at every point is the whole array. -/
theorem iblk_b (c : Dev nD) (t : Fin cfg1.N) (j : Fin 40) :
    (iblk1 V c 2 t : Vec Ideal S40 .f32) (ix1 j) = (V c main_arg5 : S40.Idx → EReal) (ix1 j) := by
  obtain ⟨-, -, -, -, e4, -⟩ := idx_facts t
  unfold iblk1
  rw [View.read_apply]
  show V c main_arg5 _ = V c main_arg5 _
  congr 1
  funext a
  apply Fin.ext
  match a with
  | ⟨0, _⟩ => show win1_2.index t (0 : Fin 1) * 40 + 1 * j.val = j.val; rw [e4]; omega

/-- So the logits of row p of the blocks at point t are the logits of row 10000 t + p of the arrays. -/
theorem blkLogit_iblk (c : Dev nD) (t : Fin cfg1.N) (p : Fin 10000) (r : Fin 100000) (hr : r.val = t.val * 10000 + p.val) :
    blkLogit (iblk1 V c 0 t) (iblk1 V c 1 t) (iblk1 V c 2 t) p = Cert.Gnn.logit (V c main_v10) (V c main_v1) (V c main_arg5) r :=
  funext fun j => congrArg₂ (· + ·)
    (Finset.sum_congr rfl fun k _ => congrArg₂ (· * ·) (iblk_a V c t p k r hr) (iblk_w V c t k j))
    (iblk_b V c t j)

/-- The specification at an index whose coordinates are named. -/
theorem logSoftmax_at (a : S100000x64.Idx → EReal) (wt : S64x40.Idx → EReal) (b : S40.Idx → EReal) (i : S100000x40.Idx)
    (r : Fin 100000) (j : Fin 40) (h0 : (i 0).val = r.val) (h1 : (i 1).val = j.val) :
    Cert.Gnn.logSoftmax a wt b i = (Cert.Gnn.logit a wt b r j - Cert.Gnn.rowMax (Cert.Gnn.logit a wt b r))
      - Ideal.log (∑ j' : Fin 40, Ideal.exp (Cert.Gnn.logit a wt b r j' - Cert.Gnn.rowMax (Cert.Gnn.logit a wt b r))) := by
  have e0 : (⟨(i 0).val, idx2_lt0 i⟩ : Fin 100000) = r := Fin.ext h0
  have e1 : (⟨(i 1).val, idx2_lt1 i⟩ : Fin 40) = j := Fin.ext h1
  unfold Cert.Gnn.logSoftmax
  rw [e0, e1]

/-- WHAT POINT t WRITES BACK is its block of the specification of the arrays as the region finds them. -/
theorem flushed_eq (c : Dev nD) (t : Fin cfg1.N) :
    (dat1 (F := Ideal) V c).flushed 3 t
      = ((cfg1.win 3).blk t).view.read (Elt Ideal) (Cert.Gnn.logSoftmax (V c main_v10) (V c main_v1) (V c main_arg5)) := by
  show (cfg1.win 3).cut (grid1.coords t) ((dat1 (F := Ideal) V c).after 3 t) = _
  rw [after1_3]
  unfold out1_3
  rw [View.canon_unit_zero hz]
  simp only [View.ld_unit_zero (S := S10000x64) hz, View.ld_unit_zero (S := S64x40) hz, View.ld_unit_zero (S := S40) hz1]
  funext y
  obtain ⟨p, j, rfl⟩ : ∃ (p : Fin 10000) (j : Fin 40), y = ix2 p j := ⟨y 0, y 1, eq_ix2 y⟩
  obtain ⟨-, -, -, -, -, e5, e6⟩ := idx_facts t
  have hN : grid1.N = 10 := N_1
  have ht : t.val < 10 := lt_of_lt_of_eq t.isLt (N_1 : cfg1.N = 10)
  have hp : p.val < 10000 := p.isLt
  show k1_pay1 (F := Ideal) (iblk1 V c 0 t) (iblk1 V c 1 t) (iblk1 V c 2 t) (ix2 p j)
    = Cert.Gnn.logSoftmax (V c main_v10) (V c main_v1) (V c main_arg5) (((cfg1.win 3).blk t).view.emb (ix2 p j))
  rw [pay_apply]
  refine Eq.trans ?_ (logSoftmax_at _ _ _ _ (⟨t.val * 10000 + p.val, by omega⟩ : Fin 100000) j ?_ ?_).symm
  · unfold blkLogSoftmax
    rw [blkLogit_iblk V c t p ⟨t.val * 10000 + p.val, by omega⟩ rfl]
  · show win1_3.index t (0 : Fin 2) * 10000 + 1 * p.val = t.val * 10000 + p.val
    rw [e5]; omega
  · show win1_3.index t (1 : Fin 2) * 40 + 1 * j.val = j.val
    rw [e6]; omega

/-- An index of the array is in point t's block iff each coordinate is in the block's range on its axis. -/
theorem mem_blk (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v11).slice (win1_3.rect t)).set ↔ _
  rw [View.set_slice_whole, Rect.mem_set_unit]
  exact Iff.rfl

/-- The ten row blocks cover the array: row r is in the block of point r / 10000. -/
theorem cover (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, e5, e6⟩ := idx_facts t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    rw [e5, ht]; omega
  | ⟨1, _⟩ =>
    show win1_3.index t (1 : Fin 2) * 40 ≤ (i 1).val ∧ (i 1).val < win1_3.index t (1 : Fin 2) * 40 + 40
    rw [e6]; omega

/-- THE ARRAY after region 1: the row-wise log-softmax of the second layer of the arrays the region finds. -/
theorem region1_array (c : Dev nD) :
    (Gen.dat1 (F := Ideal) V c).arrAt 3 cfg1.N = Cert.Gnn.logSoftmax (V c main_v10) (V c main_v1) (V c main_arg5) :=
  (dat1 (F := Ideal) V c).arrAt_eq_of_cover 3 (Cert.Gnn.logSoftmax (V c main_v10) (V c main_v1) (V c main_arg5))
    (fun t _ => flushed_eq V c t) cover

end Array

end Cert.KernelIdeal.Hand1

end
-- ==== Proof.KernelValue.lean ====
/-
  The idealized kernel's result array as the specification's functions of the arguments.

  Reading the buffer contents backwards from the return: the result array is what the second region leaves, the row-wise
  log-softmax of the second layer applied to that region's three input arrays as it finds them; its first input is the
  aggregation `aggK` of what the first region left and of the edge array; what the first region left is the hidden layer
  `relu (x · W1ᵀ + b1)` of its own inputs; and the weights a region reads are the transposes the first two host operations
  made, the biases and the edge array the arguments themselves, no operation in between writing them. Under the range
  fact on the source column the aggregation's fill value is never selected, so it is the plain gather summed into the
  destination rows (`aggPlain`).
-/
import proofs.«416674_j19911468384542_2_alg».proof.Proof.KernelMid
import proofs.«416674_j19911468384542_2_alg».proof.Proof.IndexRange
import proofs.«416674_j19911468384542_2_alg».proof.Proof.Region0
import proofs.«416674_j19911468384542_2_alg».proof.Proof.Region1

set_option maxRecDepth 16384

noncomputable section

namespace Cert.KernelIdeal.Mid

open Cert.KernelIdeal Cert.KernelIdeal.Gen
open Idealize.ShloMosaic Idealize.ShloMosaic.TcCoe Idealize.SL.Sem Idealize.ShloMosaic.StableHlo

variable {F : FTy → Type} [FloatOps F]

/-- The aggregation without the fill: the gathered rows summed into the destination rows of a zero array. -/
def aggPlain (h : FVec F S100000x64 .f32) (e : IVec S2x1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (rowOf e))
    (Host.gather gather_S100000x64_S1600000x1_S1600000x64_1_0_n_n_0_1_164 h (wrapIdx (colOf e)))

section Stretches

variable (V : Valuation τ sig (Elt F))

/-- The first two host operations transpose the two weight matrices and write nothing else. -/
theorem stretch0_wt1 : StableHlo.after hostOps0 V (Proc.devRef .tc main_v0)
    = transpose S256x64 [1, 0] (V (Proc.devRef .tc main_arg2)) transposes_S64x256_S256x64_1_0 := by
  dsimp only [hostOps0]; after_results; all_goals rfl
theorem stretch0_wt2 : StableHlo.after hostOps0 V (Proc.devRef .tc main_v1)
    = transpose S64x40 [1, 0] (V (Proc.devRef .tc main_arg4)) transposes_S40x64_S64x40_1_0 := by
  dsimp only [hostOps0]; after_results; all_goals rfl
theorem stretch0_arg0 : StableHlo.after hostOps0 V (Proc.devRef .tc main_arg0) = V (Proc.devRef .tc main_arg0) := by
  dsimp only [hostOps0]; after_results; all_goals rfl
theorem stretch0_arg1 : StableHlo.after hostOps0 V (Proc.devRef .tc main_arg1) = V (Proc.devRef .tc main_arg1) := by
  dsimp only [hostOps0]; after_results; all_goals rfl
theorem stretch0_arg3 : StableHlo.after hostOps0 V (Proc.devRef .tc main_arg3) = V (Proc.devRef .tc main_arg3) := by
  dsimp only [hostOps0]; after_results; all_goals rfl
theorem stretch0_arg5 : StableHlo.after hostOps0 V (Proc.devRef .tc main_arg5) = V (Proc.devRef .tc main_arg5) := by
  dsimp only [hostOps0]; after_results; all_goals rfl

/-- The three stretches between the regions leave the second weight's transpose and the second bias where they are. -/
theorem stretch1_wt2 : StableHlo.after hostOps1 V (Proc.devRef .tc main_v1) = V (Proc.devRef .tc main_v1) := by
  dsimp only [hostOps1]; after_results; all_goals rfl
theorem stretch1_arg5 : StableHlo.after hostOps1 V (Proc.devRef .tc main_arg5) = V (Proc.devRef .tc main_arg5) := by
  dsimp only [hostOps1]; after_results; all_goals rfl
set_option maxHeartbeats 1000000 in
theorem stretch2_wt2 : StableHlo.after hostOps1_1 V (Proc.devRef .tc main_v1) = V (Proc.devRef .tc main_v1) := by
  dsimp only [hostOps1_1]; after_results_simp
set_option maxHeartbeats 1000000 in
theorem stretch2_arg5 : StableHlo.after hostOps1_1 V (Proc.devRef .tc main_arg5) = V (Proc.devRef .tc main_arg5) := by
  dsimp only [hostOps1_1]; after_results_simp
theorem stretch3_wt2 : StableHlo.after hostOps1_2 V (Proc.devRef .tc main_v1) = V (Proc.devRef .tc main_v1) := by
  dsimp only [hostOps1_2]; after_results; all_goals rfl
theorem stretch3_arg5 : StableHlo.after hostOps1_2 V (Proc.devRef .tc main_arg5) = V (Proc.devRef .tc main_arg5) := by
  dsimp only [hostOps1_2]; after_results; all_goals rfl

end Stretches

variable (m : (ℓ : Loc nD τ sig) → Buf (Elt F) ℓ) (ρ : Dev nD → PrngReg)

/-- When the first region is entered: the input, the transposed first weight, the first bias. -/
theorem first_x (c : Dev nD) : W1 m ρ c (Proc.devRef .tc main_arg0) = m ((c : Thread nD τ).loc main_arg0) := by
  show StableHlo.after hostOps0 (W0 m ρ c) (Proc.devRef .tc main_arg0) = _
  rw [stretch0_arg0]
theorem first_wt1 (c : Dev nD) : W1 m ρ c (Proc.devRef .tc main_v0)
    = transpose S256x64 [1, 0] (m ((c : Thread nD τ).loc main_arg2)) transposes_S64x256_S256x64_1_0 := by
  show StableHlo.after hostOps0 (W0 m ρ c) (Proc.devRef .tc main_v0) = _
  rw [stretch0_wt1]
theorem first_b1 (c : Dev nD) : W1 m ρ c (Proc.devRef .tc main_arg3) = m ((c : Thread nD τ).loc main_arg3) := by
  show StableHlo.after hostOps0 (W0 m ρ c) (Proc.devRef .tc main_arg3) = _
  rw [stretch0_arg3]

/-- The same three facts at the contents the first region's data are stated at. -/
theorem first_x' (c : Dev nD) : V1 m ρ c main_arg0 = m ((c : Thread nD τ).loc main_arg0) := first_x m ρ c
theorem first_wt1' (c : Dev nD) : V1 m ρ c main_v0
    = transpose S256x64 [1, 0] (m ((c : Thread nD τ).loc main_arg2)) transposes_S64x256_S256x64_1_0 := first_wt1 m ρ c
theorem first_b1' (c : Dev nD) : V1 m ρ c main_arg3 = m ((c : Thread nD τ).loc main_arg3) := first_b1 m ρ c

/-- After the first region the edge array is still the argument. -/
theorem mid_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  rw [stretch0_arg1]

/-- When the second region is entered: the transposed second weight and the second bias. -/
theorem entry_wt2 (c : Dev nD) : W5 m ρ c (Proc.devRef .tc main_v1)
    = transpose S64x40 [1, 0] (m ((c : Thread nD τ).loc main_arg4)) transposes_S40x64_S64x40_1_0 := by
  show StableHlo.after hostOps1_2 (StableHlo.after hostOps1_1 (StableHlo.after hostOps1 (W2 m ρ c))) (Proc.devRef .tc main_v1) = _
  rw [stretch3_wt2, stretch2_wt2, stretch1_wt2, W2_of_ne m ρ c main_v1 (by decide)]
  show StableHlo.after hostOps0 (W0 m ρ c) (Proc.devRef .tc main_v1) = _
  rw [stretch0_wt2]
theorem entry_arg5 (c : Dev nD) : W5 m ρ c (Proc.devRef .tc main_arg5) = m ((c : Thread nD τ).loc main_arg5) := by
  show StableHlo.after hostOps1_2 (StableHlo.after hostOps1_1 (StableHlo.after hostOps1 (W2 m ρ c))) (Proc.devRef .tc main_arg5) = _
  rw [stretch3_arg5, stretch2_arg5, stretch1_arg5, W2_of_ne m ρ c main_arg5 (by decide)]
  show StableHlo.after hostOps0 (W0 m ρ c) (Proc.devRef .tc main_arg5) = _
  rw [stretch0_arg5]

end Cert.KernelIdeal.Mid

namespace Cert.KernelIdeal.Value

open Cert.KernelIdeal Cert.KernelIdeal.Gen Cert.KernelIdeal.Mid
open Idealize.ShloMosaic Idealize.ShloMosaic.TcCoe Idealize.SL.Sem Idealize.ShloMosaic.StableHlo

/-- Under the range fact the aggregation is the plain one: the fill is never selected. -/
theorem aggK_eq (h : FVec Ideal S100000x64 .f32) (e : IVec S2x1600000 32)
    (hr : ∀ i : S1600000.Idx, IntOp.cmpi .sge (colOf e i) 4294867296#32 = 1#1 ∧ IntOp.cmpi .slt (colOf e i) 100000#32 = 1#1) :
    aggK (F := Ideal) h e = aggPlain (F := Ideal) h e := by
  unfold aggK aggPlain
  rw [takeFill_eq _ _ hr]

variable (m : (ℓ : Loc nD τ sig) → Buf (Elt Ideal) ℓ) (ρ : Dev nD → PrngReg)

/-- The result array at the return, under the range fact on the edges' source column. -/
theorem result_eq (c : Dev nD)
    (hr : ∀ i : S1600000.Idx, IntOp.cmpi .sge (colOf (m ((c : Thread nD τ).loc main_arg1)) i) 4294867296#32 = 1#1
      ∧ IntOp.cmpi .slt (colOf (m ((c : Thread nD τ).loc main_arg1)) i) 100000#32 = 1#1) :
    W6 m ρ c (Proc.devRef .tc main_v11)
      = Cert.Gnn.logSoftmax
          (aggPlain (F := Ideal) (Cert.Gnn.hidden (m ((c : Thread nD τ).loc main_arg0))
              (transpose S256x64 [1, 0] (m ((c : Thread nD τ).loc main_arg2)) transposes_S64x256_S256x64_1_0)
              (m ((c : Thread nD τ).loc main_arg3)))
            (m ((c : Thread nD τ).loc main_arg1)))
          (transpose S64x40 [1, 0] (m ((c : Thread nD τ).loc main_arg4)) transposes_S40x64_S64x40_1_0)
          (m ((c : Thread nD τ).loc main_arg5)) := by
  rw [show W6 m ρ c (Proc.devRef .tc main_v11) = (dat1 (V5 m ρ) c).arrAt 3 cfg1.N from W6_arr m ρ c 3,
    Cert.KernelIdeal.Hand1.region1_array (V5 m ρ) c]
  show Cert.Gnn.logSoftmax (W5 m ρ c (Proc.devRef .tc main_v10)) (W5 m ρ c (Proc.devRef .tc main_v1)) (W5 m ρ c (Proc.devRef .tc main_arg5)) = _
  rw [entry_main_v10, entry_wt2, entry_arg5, mid_arg1,
    show W2 m ρ c (Proc.devRef .tc main_v2) = (dat0 (V1 m ρ) c).arrAt 3 cfg0.N from W2_arr m ρ c 3,
    Cert.KernelIdeal.Hand.region0_array (V1 m ρ) c]
  rw [first_x', first_wt1', first_b1', aggK_eq _ _ hr]

end Cert.KernelIdeal.Value

end
-- ==== Proof.RefLayers.lean ====
/-
  The reference's two dense layers, read index by index.

  * `hidden_eq`: the composed host term `max (x · wt + b) 0` — a contraction over the 256 input features, the bias laid
    along the rows ([64] → [1, 64] → [100000, 64]) and the maximum with a broadcast zero — is `Cert.Gnn.hidden x wt b`.
  * `logSoftmax_eq`: with `L = a · wt + b` the logits, the composed host term
    `(L - M) - log (∑ⱼ' exp (L - M))`, `M` the row maximum folded from the pattern of `-∞` (and once more maximised against
    that pattern), every per-row value laid along the rows ([100000] → [100000, 1] → [100000, 40]), is
    `Cert.Gnn.logSoftmax a wt b`.

  Each non-pointwise operation is read at an index by one small lemma: the broadcasts, the two contractions (their sum
  re-indexed over the one contracted coordinate), the row maximum (a fold of `max` over the forty entries) and the row sum.
-/
import proofs.«416674_j19911468384542_2_alg».proof.Proof.Gen.ReferenceIdeal
import proofs.«416674_j19911468384542_2_alg».proof.Proof.Spec
import Idealize.ShloMosaic.PureOps.Ideal.Laws
import Idealize.ShloMosaic.Lib.ValueIdx
import Idealize.ShloMosaic.Lib.StableHlo.Predicate

noncomputable section

open scoped BigOperators

namespace Cert.ReferenceIdeal.Hand

open Cert.ReferenceIdeal Cert.ReferenceIdeal.Gen Idealize.ShloMosaic Idealize.ShloMosaic.ValueIdx

/-! ## Indices: two spellings of the same index -/

/-- Row `p`, column `q` written either way is the same index. -/
theorem ij_eq_ix2 {n m : Nat} (p : Fin n) (q : Fin m) : StableHlo.Predicate.ij p q = ix2 p q := by
  funext a; match a with | ⟨0, _⟩ => rfl | ⟨1, _⟩ => rfl

/-- The rank-1 index at a coordinate, written either way. -/
theorem ofFin_eq_ix1 {n : Nat} (k : Fin n) : Shape.Idx.ofFin k = ix1 k := by
  funext a; match a with | ⟨0, _⟩ => rfl

/-! ## Broadcasts read at an index -/

/-- A vector laid along the columns ([m] → [1, m] → [n, m]) reads, at (p, q), the vector at `q`. -/
theorem bcast_cols_ix {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → EReal)
    (p : Fin n) (q : Fin m) :
    broadcastInDim ⟨2, ![n, m]⟩ ![0, 1] h₂ (broadcastInDim ⟨2, ![1, m]⟩ ![1] h₁ v) (ix2 p q) = v (ix1 q) := by
  rw [← ij_eq_ix2, StableHlo.Predicate.bcast_cols h₁ h₂ v p q, ofFin_eq_ix1]

/-- A vector laid along the rows ([n] → [n, 1] → [n, m]) reads, at (p, q), the vector at `p`. -/
theorem bcast_rows_ix {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → EReal)
    (p : Fin n) (q : Fin m) :
    broadcastInDim ⟨2, ![n, m]⟩ ![0, 1] h₂ (broadcastInDim ⟨2, ![n, 1]⟩ ![0] h₁ v) (ix2 p q) = v (ix1 p) := by
  rw [← ij_eq_ix2, StableHlo.Predicate.bcast_rows h₁ h₂ v p q, ofFin_eq_ix1]

/-- The logarithm of a column ([n] → [n, 1]), then laid along the rows ([n, 1] → [n, m]), reads at (p, q) the
    logarithm of the vector at `p`. -/
theorem bcast_log_col_ix {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : FVec Ideal ⟨1, ![n]⟩ .f32)
    (p : Fin n) (q : Fin m) :
    broadcastInDim ⟨2, ![n, m]⟩ ![0, 1] h₂ (Host.log (broadcastInDim ⟨2, ![n, 1]⟩ ![0] h₁ v)) (ix2 p q)
      = Ideal.log (v (ix1 p)) := by
  rw [← ij_eq_ix2, StableHlo.Predicate.bcast_of_col h₂ _ p q]
  show Ideal.log (broadcastInDim ⟨2, ![n, 1]⟩ ![0] h₁ v (StableHlo.Predicate.ixP p)) = _
  rw [StableHlo.Predicate.bcast_col1 h₁ v p, ofFin_eq_ix1]

/-- A broadcast splat constant reads the extended real its word encodes, everywhere. -/
theorem bcast_const_apply {t : Shape} (h : (⟨0, ![]⟩ : Shape).BroadcastsInDim t ![]) (w : BitVec 32) (j : t.Idx) :
    broadcastInDim t ![] h (constant (F := Ideal) S_ .f32 w) j = Ideal.ofBits .f32 w := rfl

/-! ## The two contractions read at an index -/

/-- First layer: on the left operand's row axis the operand index is the result's row. -/
theorem lhs_x_0 (j : S100000x64.Idx) (k : dot_S100000x256_S256x64_S100000x64_1_0_0_1_n_n.contr.Idx) :
    (dot_S100000x256_S256x64_S100000x64_1_0_0_1_n_n.lhsIdx j k 0).val = (j 0).val := by
  unfold DotDims.lhsIdx
  rw [dif_neg (show ¬(0 : Fin S100000x256.rank) ∈ dot_S100000x256_S256x64_S100000x64_1_0_0_1_n_n.lhsBatch by decide),
    dif_pos (show (0 : Fin S100000x256.rank) ∈ dot_S100000x256_S256x64_S100000x64_1_0_0_1_n_n.lhsNonContracting by decide)]
  rfl
/-- … and on its contracted axis it is the contraction position. -/
theorem lhs_x_1 (j : S100000x64.Idx) (k : dot_S100000x256_S256x64_S100000x64_1_0_0_1_n_n.contr.Idx) :
    (dot_S100000x256_S256x64_S100000x64_1_0_0_1_n_n.lhsIdx j k 1).val = (k ⟨0, by decide⟩).val :=
  dot_S100000x256_S256x64_S100000x64_1_0_0_1_n_n.lhsIdx_val_of_single rfl j k
/-- On the right operand's contracted axis the operand index is the contraction position … -/
theorem rhs_x_0 (j : S100000x64.Idx) (k : dot_S100000x256_S256x64_S100000x64_1_0_0_1_n_n.contr.Idx) :
    (dot_S100000x256_S256x64_S100000x64_1_0_0_1_n_n.rhsIdx j k 0).val = (k ⟨0, by decide⟩).val :=
  dot_S100000x256_S256x64_S100000x64_1_0_0_1_n_n.rhsIdx_val_of_single rfl j k
/-- … and on its column axis the result's column. -/
theorem rhs_x_1 (j : S100000x64.Idx) (k : dot_S100000x256_S256x64_S100000x64_1_0_0_1_n_n.contr.Idx) :
    (dot_S100000x256_S256x64_S100000x64_1_0_0_1_n_n.rhsIdx j k 1).val = (j 1).val := by
  unfold DotDims.rhsIdx
  rw [dif_neg (show ¬(1 : Fin S256x64.rank) ∈ dot_S100000x256_S256x64_S100000x64_1_0_0_1_n_n.rhsBatch by decide),
    dif_pos (show (1 : Fin S256x64.rank) ∈ dot_S100000x256_S256x64_S100000x64_1_0_0_1_n_n.rhsNonContracting by decide)]
  rfl

/-- The first layer's product at row `p`, column `q`: the sum over the 256 features. -/
theorem dot_x_apply (x : FVec Ideal S100000x256 .f32) (wt : FVec Ideal S256x64 .f32) (p : Fin 100000) (q : Fin 64) :
    Host.dotGeneral dot_S100000x256_S256x64_S100000x64_1_0_0_1_n_n none x wt (ix2 p q)
      = ∑ k : Fin 256, x (ix2 p k) * wt (ix2 k q) := by
  simp only [Host.dotGeneral]
  rw [Ideal.dotGeneral_apply,
    ← Equiv.sum_comp (contrEquiv1 dot_S100000x256_S256x64_S100000x64_1_0_0_1_n_n 256 rfl rfl).symm]
  refine Finset.sum_congr rfl fun k _ => ?_
  have hk := contrEquiv1_symm_val dot_S100000x256_S256x64_S100000x64_1_0_0_1_n_n 256 rfl rfl k
  congr 2
  · funext a; apply Fin.ext
    match a with
    | ⟨0, _⟩ => exact lhs_x_0 _ _
    | ⟨1, _⟩ => exact (lhs_x_1 _ _).trans hk
  · funext a; apply Fin.ext
    match a with
    | ⟨0, _⟩ => exact (rhs_x_0 _ _).trans hk
    | ⟨1, _⟩ => exact rhs_x_1 _ _

/-- Second layer: on the left operand's row axis the operand index is the result's row. -/
theorem lhs_a_0 (j : S100000x40.Idx) (k : dot_S100000x64_S64x40_S100000x40_1_0_0_1_n_n.contr.Idx) :
    (dot_S100000x64_S64x40_S100000x40_1_0_0_1_n_n.lhsIdx j k 0).val = (j 0).val := by
  unfold DotDims.lhsIdx
  rw [dif_neg (show ¬(0 : Fin S100000x64.rank) ∈ dot_S100000x64_S64x40_S100000x40_1_0_0_1_n_n.lhsBatch by decide),
    dif_pos (show (0 : Fin S100000x64.rank) ∈ dot_S100000x64_S64x40_S100000x40_1_0_0_1_n_n.lhsNonContracting by decide)]
  rfl
/-- … and on its contracted axis it is the contraction position. -/
theorem lhs_a_1 (j : S100000x40.Idx) (k : dot_S100000x64_S64x40_S100000x40_1_0_0_1_n_n.contr.Idx) :
    (dot_S100000x64_S64x40_S100000x40_1_0_0_1_n_n.lhsIdx j k 1).val = (k ⟨0, by decide⟩).val :=
  dot_S100000x64_S64x40_S100000x40_1_0_0_1_n_n.lhsIdx_val_of_single rfl j k
/-- On the right operand's contracted axis the operand index is the contraction position … -/
theorem rhs_a_0 (j : S100000x40.Idx) (k : dot_S100000x64_S64x40_S100000x40_1_0_0_1_n_n.contr.Idx) :
    (dot_S100000x64_S64x40_S100000x40_1_0_0_1_n_n.rhsIdx j k 0).val = (k ⟨0, by decide⟩).val :=
  dot_S100000x64_S64x40_S100000x40_1_0_0_1_n_n.rhsIdx_val_of_single rfl j k
/-- … and on its column axis the result's column. -/
theorem rhs_a_1 (j : S100000x40.Idx) (k : dot_S100000x64_S64x40_S100000x40_1_0_0_1_n_n.contr.Idx) :
    (dot_S100000x64_S64x40_S100000x40_1_0_0_1_n_n.rhsIdx j k 1).val = (j 1).val := by
  unfold DotDims.rhsIdx
  rw [dif_neg (show ¬(1 : Fin S64x40.rank) ∈ dot_S100000x64_S64x40_S100000x40_1_0_0_1_n_n.rhsBatch by decide),
    dif_pos (show (1 : Fin S64x40.rank) ∈ dot_S100000x64_S64x40_S100000x40_1_0_0_1_n_n.rhsNonContracting by decide)]
  rfl

/-- The second layer's product at row `p`, class `j`: the sum over the 64 hidden features. -/
theorem dot_a_apply (a : FVec Ideal S100000x64 .f32) (wt : FVec Ideal S64x40 .f32) (p : Fin 100000) (j : Fin 40) :
    Host.dotGeneral dot_S100000x64_S64x40_S100000x40_1_0_0_1_n_n none a wt (ix2 p j)
      = ∑ k : Fin 64, a (ix2 p k) * wt (ix2 k j) := by
  simp only [Host.dotGeneral]
  rw [Ideal.dotGeneral_apply,
    ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  congr 2
  · funext c; apply Fin.ext
    match c with
    | ⟨0, _⟩ => exact lhs_a_0 _ _
    | ⟨1, _⟩ => exact (lhs_a_1 _ _).trans hk
  · funext c; apply Fin.ext
    match c with
    | ⟨0, _⟩ => exact (rhs_a_0 _ _).trans hk
    | ⟨1, _⟩ => exact rhs_a_1 _ _

/-! ## The two row reductions read at an index -/

/-- The shape fact the reductions' inserted index is defined from. -/
theorem reduces_rows : S100000x40.Reduces [1] S100000 := by decide

/-- Row `p` with the reduced coordinate `k` put back is the index (p, k). -/
theorem lift_row (p : Fin 100000) (k : Fin 40) : reduces_rows.lift (ix1 p) k = ix2 p k := by
  funext a; apply Fin.ext
  match a with
  | ⟨0, _⟩ => rfl
  | ⟨1, _⟩ => rfl

/-- The row maximum: the fold of `max` over the forty entries of row `p`, from the pattern of `-∞`. -/
theorem reduceMax_apply (L : FVec Ideal S100000x40 .f32) (p : Fin 100000) :
    Host.reduce FloatOps.maximumf L (constant (F := Ideal) S_ .f32 0xFF800000#32) reducesTo_S100000x40_S100000_d1 h_S_ (ix1 p)
      = Cert.Gnn.rowMax fun j' => L (ix2 p j') := by
  rw [Host.reduce_eq_fold_single FloatOps.maximumf L _ reducesTo_S100000x40_S100000_d1 reduces_rows h_S_ (ix1 p)]
  have hl : (L ∘ reduces_rows.lift (ix1 p)) = fun j' : Fin 40 => L (ix2 p j') := by
    funext k; exact congrArg L (lift_row p k)
  rw [hl]
  rfl

/-- The row sum: zero plus the sum over the forty entries of row `p`. -/
theorem reduceAdd_apply (E : FVec Ideal S100000x40 .f32) (p : Fin 100000) :
    Host.reduceAdd E (constant (F := Ideal) S_ .f32 0x00000000#32) reducesTo_S100000x40_S100000_d1 h_S_ (ix1 p)
      = ∑ j' : Fin 40, E (ix2 p j') := by
  unfold Host.reduceAdd
  rw [Ideal.hostReduceAdd_def, Ideal.hostReduceAdd_single reducesTo_S100000x40_S100000_d1 reduces_rows]
  rw [constant_apply, Ideal.ofBits_zero_f32, zero_add]
  exact Finset.sum_congr rfl fun k _ => congrArg E (lift_row p k)

/-! ## The first layer -/

/-- `relu (x · wt + b)` as the host program composes it is the specification's `hidden`. -/
theorem hidden_eq (x : FVec Ideal S100000x256 .f32) (wt : FVec Ideal S256x64 .f32) (b : FVec Ideal S64 .f32) :
    maximumf (addf (Host.dotGeneral dot_S100000x256_S256x64_S100000x64_1_0_0_1_n_n none x wt) (broadcastInDim S100000x64 ![0, 1] bcast_S1x64_S100000x64_0_1 (broadcastInDim S1x64 ![1] bcast_S64_S1x64_1 b))) (broadcastInDim S100000x64 ![] bcast_S_S100000x64 (constant S_ .f32 0x00000000#32))
      = Cert.Gnn.hidden x wt b := by
  funext i
  obtain ⟨p, q, rfl⟩ : ∃ (p : Fin 100000) (q : Fin 64), i = ix2 p q := ⟨i 0, i 1, eq_ix2 i⟩
  rw [maximumf_apply, addf_apply, dot_x_apply, bcast_cols_ix bcast_S64_S1x64_1 bcast_S1x64_S100000x64_0_1 b p q,
    bcast_const_apply, Ideal.ofBits_zero_f32]
  rfl

/-! ## The second layer -/

/-- The row maximum as the host program composes it (with the extra `max` against the broadcast `-∞`) is `rowMax`. -/
theorem rowMaxVec_apply (L : FVec Ideal S100000x40 .f32) (p : Fin 100000) :
    maximumf (broadcastInDim S100000 ![] bcast_S_S100000 (constant S_ .f32 0xFF800000#32)) (Host.reduce FloatOps.maximumf L (constant S_ .f32 0xFF800000#32) reducesTo_S100000x40_S100000_d1 h_S_) (ix1 p)
      = Cert.Gnn.rowMax fun j' => L (ix2 p j') := by
  rw [maximumf_apply, bcast_const_apply, reduceMax_apply]
  exact Cert.Gnn.max_negInf_rowMax _

/-- Subtracting a per-row value laid along the rows, at (p, j). -/
theorem sub_rows_apply (Z : FVec Ideal S100000x40 .f32) (M : FVec Ideal S100000 .f32) (p : Fin 100000) (j : Fin 40) :
    subf Z (broadcastInDim S100000x40 ![0, 1] bcast_S100000x1_S100000x40_0_1 (broadcastInDim S100000x1 ![0] bcast_S100000_S100000x1_0 M)) (ix2 p j)
      = Z (ix2 p j) - M (ix1 p) := by
  rw [subf_apply, bcast_rows_ix bcast_S100000_S100000x1_0 bcast_S100000x1_S100000x40_0_1 M p j]

/-- Subtracting the logarithm of the row sum of exponentials, at (p, j). -/
theorem sub_log_rowsum_apply (Z Y : FVec Ideal S100000x40 .f32) (p : Fin 100000) (j : Fin 40) :
    subf Z (broadcastInDim S100000x40 ![0, 1] bcast_S100000x1_S100000x40_0_1 (Host.log (broadcastInDim S100000x1 ![0] bcast_S100000_S100000x1_0 (Host.reduceAdd (Host.exp Y) (constant S_ .f32 0x00000000#32) reducesTo_S100000x40_S100000_d1 h_S_)))) (ix2 p j)
      = Z (ix2 p j) - Ideal.log (∑ j' : Fin 40, Ideal.exp (Y (ix2 p j'))) := by
  rw [subf_apply, bcast_log_col_ix bcast_S100000_S100000x1_0 bcast_S100000x1_S100000x40_0_1 _ p j, reduceAdd_apply]
  rfl

/-- The row-wise log-softmax of an array of logits `L`, as the host program composes it, read at (p, j): with `l` the
    row `p` of `L` and `M` its maximum, `(l j - M) - log (∑ⱼ' exp (l j' - M))`. -/
theorem logSoftmax_of_logits (L : FVec Ideal S100000x40 .f32) (p : Fin 100000) (j : Fin 40) (l : Fin 40 → EReal)
    (hl : ∀ j', L (ix2 p j') = l j') :
    subf (subf L (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf L (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x40_S100000_d1 h_S_)))))) (constant S_ .f32 0x00000000#32) reducesTo_S100000x40_S100000_d1 h_S_)))) (ix2 p j)
      = (l j - Cert.Gnn.rowMax l) - Ideal.log (∑ j' : Fin 40, Ideal.exp (l j' - Cert.Gnn.rowMax l)) := by
  have hfun : (fun j' => L (ix2 p j')) = l := funext hl
  rw [sub_log_rowsum_apply, sub_rows_apply, rowMaxVec_apply, hfun, hl j]
  refine congrArg (fun s => _ - Ideal.log s) (Finset.sum_congr rfl fun j' _ => ?_)
  rw [sub_rows_apply, rowMaxVec_apply, hfun, hl j']

/-- The logits at row `p`, class `j`. -/
theorem logits_apply (a : FVec Ideal S100000x64 .f32) (wt : FVec Ideal S64x40 .f32) (b : FVec Ideal S40 .f32)
    (p : Fin 100000) (j : Fin 40) :
    addf (Host.dotGeneral dot_S100000x64_S64x40_S100000x40_1_0_0_1_n_n none a wt) (broadcastInDim S100000x40 ![0, 1] bcast_S1x40_S100000x40_0_1 (broadcastInDim S1x40 ![1] bcast_S40_S1x40_1 b)) (ix2 p j) = Cert.Gnn.logit a wt b p j := by
  rw [addf_apply, dot_a_apply, bcast_cols_ix bcast_S40_S1x40_1 bcast_S1x40_S100000x40_0_1 b p j]
  rfl

/-- `log_softmax (a · wt + b)` as the host program composes it is the specification's `logSoftmax`. -/
theorem logSoftmax_eq (a : FVec Ideal S100000x64 .f32) (wt : FVec Ideal S64x40 .f32) (b : FVec Ideal S40 .f32) :
    subf (subf (addf (Host.dotGeneral dot_S100000x64_S64x40_S100000x40_1_0_0_1_n_n none a wt) (broadcastInDim S100000x40 ![0, 1] bcast_S1x40_S100000x40_0_1 (broadcastInDim S1x40 ![1] bcast_S40_S1x40_1 b))) (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf (addf (Host.dotGeneral dot_S100000x64_S64x40_S100000x40_1_0_0_1_n_n none a wt) (broadcastInDim S100000x40 ![0, 1] bcast_S1x40_S100000x40_0_1 (broadcastInDim S1x40 ![1] bcast_S40_S1x40_1 b))) (constant S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf (addf (Host.dotGeneral dot_S100000x64_S64x40_S100000x40_1_0_0_1_n_n none a wt) (broadcastInDim S100000x40 ![0, 1] bcast_S1x40_S100000x40_0_1 (broadcastInDim S1x40 ![1] bcast_S40_S1x40_1 b))) (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf (addf (Host.dotGeneral dot_S100000x64_S64x40_S100000x40_1_0_0_1_n_n none a wt) (broadcastInDim S100000x40 ![0, 1] bcast_S1x40_S100000x40_0_1 (broadcastInDim S1x40 ![1] bcast_S40_S1x40_1 b))) (constant S_ .f32 0xFF800000#32) reducesTo_S100000x40_S100000_d1 h_S_)))))) (constant S_ .f32 0x00000000#32) reducesTo_S100000x40_S100000_d1 h_S_))))
      = Cert.Gnn.logSoftmax a wt b := by
  funext i
  obtain ⟨p, j, rfl⟩ : ∃ (p : Fin 100000) (j : Fin 40), i = ix2 p j := ⟨i 0, i 1, eq_ix2 i⟩
  rw [logSoftmax_of_logits _ p j (Cert.Gnn.logit a wt b p) (logits_apply a wt b p)]
  rfl

end Cert.ReferenceIdeal.Hand

end
-- ==== Proof.RefValue.lean ====
/-
  The reference's run, read: its forty-five host operations in three stretches — the first layer (`relu (x · W1ᵀ + b1)`),
  the gather of the hidden rows by the edges' source column and their scatter-sum into the destination rows, and the
  second layer with its row-wise log-softmax — each read from ARBITRARY contents `V` (so that a stretch's operands stay
  names), then composed: the result buffer holds `Cert.Gnn.logSoftmax` of the aggregation `aggR` of `Cert.Gnn.hidden`.

  * `colOf e`, `rowOf e`: the two rows of the [2, E] edge array;
  * `wrapIdx col`: an index below zero counts from the end, as an [E, 1] column of start indices;
  * `aggR h e`: the rows of `h` at those indices, summed into a zero [100000, 64] array at the rows `rowOf e`.
-/
import proofs.«416674_j19911468384542_2_alg».proof.Proof.RefRun
import proofs.«416674_j19911468384542_2_alg».proof.Proof.RefLayers
import Idealize.ShloMosaic.Lib.Pipeline.Frame

set_option maxRecDepth 16384

noncomputable section

namespace Cert.ReferenceIdeal.Mid

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The edges' source column: row 1 of the edge array. -/
def colOf (e : IVec S2x1600000 32) : IVec S1600000 32 :=
  shapeCast S1600000 (extractStridedSlice S1x1600000 ![1, 0] e slices_S2x1600000_S1x1600000_1_0) shapeCasts_S1x1600000_S1600000

/-- The edges' destination row: row 0 of the edge array. -/
def rowOf (e : IVec S2x1600000 32) : IVec S1600000 32 :=
  shapeCast S1600000 (extractStridedSlice S1x1600000 ![0, 0] e slices_S2x1600000_S1x1600000_0_0) shapeCasts_S1x1600000_S1600000

/-- Start indices of the gather: a negative index counts from the end. -/
def wrapIdx (col : IVec S1600000 32) : IVec S1600000x1 32 :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 100000#32))) col)

/-- The aggregated features: the gathered rows summed into the destination rows of a zero array. -/
def aggR (h : FVec F S100000x64 .f32) (e : IVec S2x1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (rowOf e))
    (Host.gather gather_S100000x64_S1600000x1_S1600000x64_1_0_n_n_0_1_164 h (wrapIdx (colOf e)))

/-- The first layer's eight operations. -/
abbrev opsA : List (HloOp τ sig (Elt F)) :=
  [ unary main_arg2 main_v0 ((transpose S256x64 [1, 0] · transposes_S64x256_S256x64_1_0) : (⟨S64x256, .f32⟩ : BufTy).Contents (Elt F) → (⟨S256x64, .f32⟩ : BufTy).Contents (Elt F)),
    binary main_arg0 main_v0 main_v1 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S100000x64 ![0, 1] bcast_S1x64_S100000x64_0_1 : (⟨S1x64, .f32⟩ : BufTy).Contents (Elt F) → (⟨S100000x64, .f32⟩ : BufTy).Contents (Elt F)),
    binary main_v1 main_v3 main_v4 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v4) (TRef.of (T := ⟨S100000x64, .f32⟩) main_call0_v0) (TRef.of (T := ⟨S100000x64, .f32⟩) main_v5) maximumf ]

/-- The seventeen operations of the gather and the scatter-sum. -/
abbrev opsB : List (HloOp τ sig (Elt F)) :=
  [ unary main_arg1 main_v6 ((extractStridedSlice S1x1600000 ![0, 0] · slices_S2x1600000_S1x1600000_0_0) : (⟨S2x1600000, .i32⟩ : BufTy).Contents (Elt F) → (⟨S1x1600000, .i32⟩ : BufTy).Contents (Elt F)),
    reshape main_v6 main_v7 rfl shapeCasts_S1x1600000_S1600000,
    unary main_arg1 main_v8 ((extractStridedSlice S1x1600000 ![1, 0] · slices_S2x1600000_S1x1600000_1_0) : (⟨S2x1600000, .i32⟩ : BufTy).Contents (Elt F) → (⟨S1x1600000, .i32⟩ : BufTy).Contents (Elt F)),
    reshape main_v8 main_v9 rfl shapeCasts_S1x1600000_S1600000,
    nullary main_c (constantI S_ 32 0#32),
    unary main_c main_v10 (broadcastInDim S1600000 ![] bcast_S_S1600000 : (⟨S_, .i32⟩ : BufTy).Contents (Elt F) → (⟨S1600000, .i32⟩ : BufTy).Contents (Elt F)),
    binary main_v9 main_v10 main_v11 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v12 (broadcastInDim S1600000 ![] bcast_S_S1600000 : (⟨S_, .i32⟩ : BufTy).Contents (Elt F) → (⟨S1600000, .i32⟩ : BufTy).Contents (Elt F)),
    binary main_v9 main_v12 main_v13 (addi : (⟨S1600000, .i32⟩ : BufTy).Contents (Elt F) → (⟨S1600000, .i32⟩ : BufTy).Contents (Elt F) → (⟨S1600000, .i32⟩ : BufTy).Contents (Elt F)),
    ternary main_v11 main_v13 main_v9 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v14 main_v15 (broadcastInDim S1600000x1 ![0] bcast_S1600000_S1600000x1_0 : (⟨S1600000, .i32⟩ : BufTy).Contents (Elt F) → (⟨S1600000x1, .i32⟩ : BufTy).Contents (Elt F)),
    binary main_v5 main_v15 main_v16 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v17 (broadcastInDim S100000x64 ![] bcast_S_S100000x64 : (⟨S_, .f32⟩ : BufTy).Contents (Elt F) → (⟨S100000x64, .f32⟩ : BufTy).Contents (Elt F)),
    unary main_v7 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The second layer's twenty operations. -/
abbrev opsC : List (HloOp τ sig (Elt F)) :=
  [ unary main_arg4 main_v20 ((transpose S64x40 [1, 0] · transposes_S40x64_S64x40_1_0) : (⟨S40x64, .f32⟩ : BufTy).Contents (Elt F) → (⟨S64x40, .f32⟩ : BufTy).Contents (Elt F)),
    binary main_v19 main_v20 main_v21 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg5 main_v22 (broadcastInDim S1x40 ![1] bcast_S40_S1x40_1 : (⟨S40, .f32⟩ : BufTy).Contents (Elt F) → (⟨S1x40, .f32⟩ : BufTy).Contents (Elt F)),
    unary main_v22 main_v23 (broadcastInDim S100000x40 ![0, 1] bcast_S1x40_S100000x40_0_1 : (⟨S1x40, .f32⟩ : BufTy).Contents (Elt F) → (⟨S100000x40, .f32⟩ : BufTy).Contents (Elt F)),
    binary main_v21 main_v23 main_v24 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v24) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v24) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v25) subf ]

theorem ops_split : (ops : List (HloOp τ sig (Elt F))) = opsA ++ (opsB ++ opsC) := rfl

section Stretches

variable (V : Valuation τ sig (Elt F))

/-- Reading back, at a value's own type, what was just written there at that type gives the value. -/
theorem ofBuf_toBuf {T : BufTy} (x : TRef sig T) (v : T.Contents (Elt F)) : x.ofBuf (x.toBuf v) = v := by
  obtain ⟨r, rfl, _, _⟩ := x; rfl
/-- The change of view between a buffer's type and the value's type is the identity at these buffers. -/
theorem ofBuf_v4 (v : (⟨S100000x64, .f32⟩ : BufTy).Contents (Elt F)) :
    (TRef.of main_v4 : TRef sig ⟨S100000x64, .f32⟩).ofBuf v = v := cast_eq _ _
theorem toBuf_v5 (v : (⟨S100000x64, .f32⟩ : BufTy).Contents (Elt F)) :
    (TRef.of main_v5 : TRef sig ⟨S100000x64, .f32⟩).toBuf v = v := cast_eq _ _
theorem ofBuf_v24 (v : (⟨S100000x40, .f32⟩ : BufTy).Contents (Elt F)) :
    (TRef.of main_v24 : TRef sig ⟨S100000x40, .f32⟩).ofBuf v = v := cast_eq _ _
theorem toBuf_v25 (v : (⟨S100000x40, .f32⟩ : BufTy).Contents (Elt F)) :
    (TRef.of main_v25 : TRef sig ⟨S100000x40, .f32⟩).toBuf v = v := cast_eq _ _

/-- The first stretch leaves the first layer in `main_v5` … -/
theorem stretchA_h : StableHlo.after opsA V (Proc.devRef .tc main_v5)
    = (fun (x : FVec F S100000x256 .f32) (wt : FVec F S256x64 .f32) (b : FVec F S64 .f32) => maximumf (addf (Host.dotGeneral dot_S100000x256_S256x64_S100000x64_1_0_0_1_n_n none x wt) (broadcastInDim S100000x64 ![0, 1] bcast_S1x64_S100000x64_0_1 (broadcastInDim S1x64 ![1] bcast_S64_S1x64_1 b))) (broadcastInDim S100000x64 ![] bcast_S_S100000x64 (constant S_ .f32 0x00000000#32)))
        (V (Proc.devRef .tc main_arg0)) (transpose S256x64 [1, 0] (V (Proc.devRef .tc main_arg2)) transposes_S64x256_S256x64_1_0) (V (Proc.devRef .tc main_arg3)) := by
  dsimp only [opsA]
  after_results_simp
  simp only [ofBuf_toBuf, ofBuf_v4, toBuf_v5]

/-- … and the edge array and the second layer's parameters where they are. -/
theorem stretchA_arg1 : StableHlo.after opsA V (Proc.devRef .tc main_arg1) = V (Proc.devRef .tc main_arg1) := by
  dsimp only [opsA]; after_results_simp
theorem stretchA_arg4 : StableHlo.after opsA V (Proc.devRef .tc main_arg4) = V (Proc.devRef .tc main_arg4) := by
  dsimp only [opsA]; after_results_simp
theorem stretchA_arg5 : StableHlo.after opsA V (Proc.devRef .tc main_arg5) = V (Proc.devRef .tc main_arg5) := by
  dsimp only [opsA]; after_results_simp

/-- The second stretch leaves the aggregation in `main_v19` … -/
theorem stretchB_agg : StableHlo.after opsB V (Proc.devRef .tc main_v19)
    = aggR (F := F) (V (Proc.devRef .tc main_v5)) (V (Proc.devRef .tc main_arg1)) := by
  dsimp only [opsB]
  after_results_simp
  rfl

/-- … and the second layer's parameters where they are. -/
theorem stretchB_arg4 : StableHlo.after opsB V (Proc.devRef .tc main_arg4) = V (Proc.devRef .tc main_arg4) := by
  dsimp only [opsB]; after_results_simp
theorem stretchB_arg5 : StableHlo.after opsB V (Proc.devRef .tc main_arg5) = V (Proc.devRef .tc main_arg5) := by
  dsimp only [opsB]; after_results_simp

set_option maxHeartbeats 1000000 in
/-- The third stretch leaves the row-wise log-softmax of the second layer in the result buffer. -/
theorem stretchC_out : StableHlo.after opsC V (Proc.devRef .tc main_v25)
    = (fun (a : FVec F S100000x64 .f32) (wt : FVec F S64x40 .f32) (b : FVec F S40 .f32) => subf (subf (addf (Host.dotGeneral dot_S100000x64_S64x40_S100000x40_1_0_0_1_n_n none a wt) (broadcastInDim S100000x40 ![0, 1] bcast_S1x40_S100000x40_0_1 (broadcastInDim S1x40 ![1] bcast_S40_S1x40_1 b))) (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf (addf (Host.dotGeneral dot_S100000x64_S64x40_S100000x40_1_0_0_1_n_n none a wt) (broadcastInDim S100000x40 ![0, 1] bcast_S1x40_S100000x40_0_1 (broadcastInDim S1x40 ![1] bcast_S40_S1x40_1 b))) (constant S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf (addf (Host.dotGeneral dot_S100000x64_S64x40_S100000x40_1_0_0_1_n_n none a wt) (broadcastInDim S100000x40 ![0, 1] bcast_S1x40_S100000x40_0_1 (broadcastInDim S1x40 ![1] bcast_S40_S1x40_1 b))) (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf (addf (Host.dotGeneral dot_S100000x64_S64x40_S100000x40_1_0_0_1_n_n none a wt) (broadcastInDim S100000x40 ![0, 1] bcast_S1x40_S100000x40_0_1 (broadcastInDim S1x40 ![1] bcast_S40_S1x40_1 b))) (constant S_ .f32 0xFF800000#32) reducesTo_S100000x40_S100000_d1 h_S_)))))) (constant S_ .f32 0x00000000#32) reducesTo_S100000x40_S100000_d1 h_S_)))))
        (V (Proc.devRef .tc main_v19)) (transpose S64x40 [1, 0] (V (Proc.devRef .tc main_arg4)) transposes_S40x64_S64x40_1_0) (V (Proc.devRef .tc main_arg5)) := by
  dsimp only [opsC]
  after_results_simp
  simp only [ofBuf_toBuf, ofBuf_v24, toBuf_v25]

end Stretches

/-- The result as the specification's functions of a memory's argument arrays: the row-wise log-softmax of the second
    layer over the aggregation of the first layer. -/
def specOut (m : (ℓ : Loc nD τ sig) → Buf (Elt Ideal) ℓ) (c : Dev nD) : (⟨2, ![100000, 40]⟩ : Shape).Idx → EReal :=
  Cert.Gnn.logSoftmax
    (aggR (F := Ideal) (Cert.Gnn.hidden (m ((c.tc : Thread nD τ).loc main_arg0))
        (transpose S256x64 [1, 0] (m ((c.tc : Thread nD τ).loc main_arg2)) transposes_S64x256_S256x64_1_0)
        (m ((c.tc : Thread nD τ).loc main_arg3)))
      (m ((c.tc : Thread nD τ).loc main_arg1)))
    (transpose S64x40 [1, 0] (m ((c.tc : Thread nD τ).loc main_arg4)) transposes_S40x64_S64x40_1_0)
    (m ((c.tc : Thread nD τ).loc main_arg5))

/-- What the reference's result buffer holds after the run. -/
theorem result_eq (m : (ℓ : Loc nD τ sig) → Buf (Elt Ideal) ℓ) (c : Dev nD) :
    StableHlo.after (ops (F := Ideal)) (launchContents m c) (Proc.devRef .tc main_v25) = specOut m c := by
  rw [ops_split, StableHlo.after_append, StableHlo.after_append, stretchC_out, stretchB_agg, stretchB_arg4, stretchB_arg5,
    stretchA_h, stretchA_arg1, stretchA_arg4, stretchA_arg5]
  dsimp only
  rw [Cert.ReferenceIdeal.Hand.hidden_eq, Cert.ReferenceIdeal.Hand.logSoftmax_eq]
  rfl

end Cert.ReferenceIdeal.Mid

end
-- ==== Proof.lean ====
/-
  The certificate of a two-layer graph network's forward pass: a Pallas kernel program (two dense layers as TensorCore
  regions, the neighbourhood aggregation between them on the host) against its jnp reference, over the extended reals.

  Both programs compute, for node features `x`, edges `(row, col)` and parameters `W1, b1, W2, b2`:
  `h = relu (x · W1ᵀ + b1)`; `agg[r] = ∑ over the edges e with row e = r of h[col e]`; `out = log_softmax (agg · W2ᵀ + b2)` along
  each row. The kernel blocks the two dense layers by 10000 rows; at the extended reals a blocked matrix product into a
  zero accumulator is the plain sum, the two maxima and the two sums over a row are the same folds, and the shift by the
  row maximum is taken literally on both sides, so no law of arithmetic beyond `max (-∞-pattern) M = M` for a fold `M`
  started at that pattern is used, and the finiteness of the inputs is never opened.

  The one difference between the programs is the gather: the kernel's fills rows whose index is out of range with a
  not-a-number pattern, the reference's clamps the index; at such an index the two results differ, so the claim holds only
  on the domain where the reference's own indexing is in range. The statement's precondition therefore carries, beside the
  finiteness of the float inputs, the range of the source column, `-100000 ≤ col < 100000` (the indices at which reading a
  [100000, 64] array from either end is defined). In that range every index is in range after the wrap from the end, so the
  fill is never selected and the two gathers are one function.

  The three frames: the kernel programs' are the generated ones; the reference's is its run with the result dropped.
-/
import proofs.«416674_j19911468384542_2_alg».proof.Defs
import proofs.«416674_j19911468384542_2_alg».proof.Proof.Gen.Kernel
import proofs.«416674_j19911468384542_2_alg».proof.Proof.Gen.Kernel.Skeleton
import proofs.«416674_j19911468384542_2_alg».proof.Proof.Gen.Kernel.Launch
import proofs.«416674_j19911468384542_2_alg».proof.Proof.Gen.Kernel.Points
import proofs.«416674_j19911468384542_2_alg».proof.Proof.Gen.Kernel.Frame
import proofs.«416674_j19911468384542_2_alg».proof.Proof.Gen.KernelIdeal
import proofs.«416674_j19911468384542_2_alg».proof.Proof.Gen.KernelIdeal.Skeleton
import proofs.«416674_j19911468384542_2_alg».proof.Proof.Gen.KernelIdeal.Launch
import proofs.«416674_j19911468384542_2_alg».proof.Proof.Gen.KernelIdeal.Points
import proofs.«416674_j19911468384542_2_alg».proof.Proof.Gen.KernelIdeal.Frame
import proofs.«416674_j19911468384542_2_alg».proof.Proof.Gen.ReferenceIdeal
import proofs.«416674_j19911468384542_2_alg».proof.Proof.Gen.Pre_finite_inputs
import proofs.«416674_j19911468384542_2_alg».proof.Proof.KernelRun
import proofs.«416674_j19911468384542_2_alg».proof.Proof.KernelValue
import proofs.«416674_j19911468384542_2_alg».proof.Proof.RefRun
import proofs.«416674_j19911468384542_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The kernel's aggregation without the fill and the reference's are one function: the same gather and the same
    scatter-sum at the same start indices and destination rows. -/
theorem agg_eq (h : FVec Ideal ⟨2, ![100000, 64]⟩ .f32) (e : IVec ⟨2, ![2, 1600000]⟩ 32) :
    Cert.KernelIdeal.Mid.aggPlain (F := Ideal) h e = Cert.ReferenceIdeal.Mid.aggR (F := Ideal) h e := rfl

/-- Both idealized programs end at the specification's function of the arguments. -/
theorem algebraic : Cert.algebraic_KernelIdeal_ReferenceIdeal := by
  intro m ρ m' ρ' hpre hagree
  refine ⟨fun c => Cert.ReferenceIdeal.Mid.specOut m' c, ?_, ?_⟩
  · refine (θ_run Cert.KernelIdeal.defs _ _).mono (fun r h c => ⟨(h c).1.trans ?_, (h c).2⟩)
      (Cert.KernelIdeal.GenRun.run (F := Ideal) m ρ)
    rw [Cert.KernelIdeal.Value.result_eq m ρ c (fun i => Cert.KernelIdeal.Mid.col_range _ _ _ _ _ _ (hpre c) i), agg_eq]
    obtain ⟨e0, e1, e2, e3, e4, e5⟩ := hagree c
    show _ = Cert.ReferenceIdeal.Mid.specOut m' c
    unfold Cert.ReferenceIdeal.Mid.specOut
    rw [e0, e1, e2, e3, e4, e5]
  · refine (θ_run Cert.ReferenceIdeal.defs _ _).mono (fun r h c => ⟨(h c).1.trans ?_, (h c).2⟩)
      (Cert.ReferenceIdeal.ValueP.run (F := Ideal) m' ρ')
    exact Cert.ReferenceIdeal.Mid.result_eq m' c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
